-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S128x128 : Shape := ⟨2, ![128, 128]⟩
abbrev S1x128 : Shape := ⟨2, ![1, 128]⟩
abbrev S1048576 : Shape := ⟨1, ![1048576]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_

variable [Facts]

def fn_part3 {F : FTy → Type} [FloatOps F] (main_arg11 : FVec F S1x128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S1x128 .f32 := Host.absf main_arg11
  let main_cst_20 : FVec F S_ .f32 := constant S_ .f32 0x7F800000#32
  let main_v55 : FVec F S1x128 .f32 := broadcastInDim S1x128 ![] bcast_S_S1x128 main_cst_20
  let main_v56 : IVec S1x128 1 := cmpf .olt main_v54 main_v55
  let main_c_21 : IVec S_ 1 := constantI S_ 1 1#1
  let main_v57 : IVec S_ 1 := (fun x v => Host.reduce IntOp.andi x v reducesTo_S1x128_S_d0_1 h_S_) main_v56 main_c_21
  let main_v58 : IVec S_ 1 := andi main_v53 main_v57
  main_v58

def fn_part2 {F : FTy → Type} [FloatOps F] (main_arg7 : FVec F S128x128 .f32) (main_arg8 : FVec F S1x128 .f32) (main_arg9 : FVec F S128x128 .f32) (main_arg10 : FVec F S128x128 .f32) (main_arg11 : FVec F S1x128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S1x128 .f32 := Host.absf main_arg8
  let main_cst_14 : FVec F S_ .f32 := constant S_ .f32 0x7F800000#32
  let main_v40 : FVec F S1x128 .f32 := broadcastInDim S1x128 ![] bcast_S_S1x128 main_cst_14
  let main_v41 : IVec S1x128 1 := cmpf .olt main_v39 main_v40
  let main_c_15 : IVec S_ 1 := constantI S_ 1 1#1
  let main_v42 : IVec S_ 1 := (fun x v => Host.reduce IntOp.andi x v reducesTo_S1x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_v48 main_v49 main_v50

def fn_part1 {F : FTy → Type} [FloatOps F] (main_arg4 : FVec F S128x128 .f32) (main_arg5 : FVec F S1x128 .f32) (main_arg6 : FVec F S128x128 .f32) (main_arg7 : FVec F S128x128 .f32) (main_arg8 : FVec F S1x128 .f32) (main_arg9 : FVec F S128x128 .f32) (main_arg10 : FVec F S128x128 .f32) (main_arg11 : FVec F S1x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S1x128 .f32 := Host.absf main_arg5
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S65536x128 .f32) (main_arg1 : FVec F S65536x128 .f32) (main_arg2 : FVec F S65536x128 .f32) (main_arg3 : FVec F S128x128 .f32) (main_arg4 : FVec F S128x128 .f32) (main_arg5 : FVec F S1x128 .f32) (main_arg6 : FVec F S128x128 .f32) (main_arg7 : FVec F S128x128 .f32) (main_arg8 : FVec F S1x128 .f32) (main_arg9 : FVec F S128x128 .f32) (main_arg10 : FVec F S128x128 .f32) (main_arg11 : FVec F S1x128 .f32) (main_arg12 : IVec S1048576 32) (main_arg13 : IVec S1048576 32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S65536x128 .f32 := Host.absf main_arg1
  let main_cst_0 : FVec F S_ .f32 := constant S_ .f32 0x7F800000#32
  let main_v5 : FVec F S65536x128 .f32 := broadcastInDim S65536x128 ![] bcast_S_S65536x128 main_cst_0
  let main_v6 : IVec S65536x128 1 := cmpf .olt main_v4 main_v5
  let main_c_1 : IVec S_ 1 := constantI S_ 1 1#1
  let main_v7 : IVec S_ 1 := (fun x v => Host.reduce IntOp.andi x v reducesTo_S65536x128_S_d0_1 h_S_) main_v6 main_c_1
  let main_v8 : IVec S_ 1 := andi main_v3 main_v7
  let main_v9 : FVec F S65536x128 .f32 := Host.absf main_arg2
  let main_cst_2 : FVec F S_ .f32 := constant S_ .f32 0x7F800000#32
  let main_v10 : FVec F S65536x128 .f32 := broadcastInDim S65536x128 ![] bcast_S_S65536x128 main_cst_2
  let main_v11 : IVec S65536x128 1 := cmpf .olt main_v9 main_v10
  let main_c_3 : IVec S_ 1 := constantI S_ 1 1#1
  let main_v12 : IVec S_ 1 := (fun x v => Host.reduce IntOp.andi x v reducesTo_S65536x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_v13 main_v16
-- ==== Kernel.lean ====
abbrev S65536x128 : Shape := ⟨2, ![65536, 128]⟩
abbrev S128x128 : Shape := ⟨2, ![128, 128]⟩
abbrev S1x128 : Shape := ⟨2, ![1, 128]⟩
abbrev S1048576 : Shape := ⟨1, ![1048576]⟩
abbrev S_ : Shape := ⟨0, ![]⟩
abbrev S1048576x1 : Shape := ⟨2, ![1048576, 1]⟩
abbrev S1048576x128 : Shape := ⟨2, ![1048576, 128]⟩
abbrev S2048x128 : Shape := ⟨2, ![2048, 128]⟩

abbrev nBuf : Space → Nat
  | .hbm => 53
  | .vmem => 31
  | .smem => 0
  | _ => 0

abbrev bufTy : (tb : Table) → Fin (tcTables nBuf tb) → BufTy
  | .hbm, ⟨0, _⟩ => ⟨S65536x128, .f32⟩
  | .hbm, ⟨1, _⟩ => ⟨S65536x128, .f32⟩
  | .hbm, ⟨2, _⟩ => ⟨S65536x128, .f32⟩
  | .hbm, ⟨3, _⟩ => ⟨S128x128, .f32⟩
  | .hbm, ⟨4, _⟩ => ⟨S128x128, .f32⟩
  | .hbm, ⟨5, _⟩ => ⟨S1x128, .f32⟩
  | .hbm, ⟨6, _⟩ => ⟨S128x128, .f32⟩
  | .hbm, ⟨7, _⟩ => ⟨S128x128, .f32⟩
  | .hbm, ⟨8, _⟩ => ⟨S1x128, .f32⟩
  | .hbm, ⟨9, _⟩ => ⟨S128x128, .f32⟩
  | .hbm, ⟨10, _⟩ => ⟨S128x128, .f32⟩
  | .hbm, ⟨11, _⟩ => ⟨S1x128, .f32⟩
  | .hbm, ⟨12, _⟩ => ⟨S1048576, .i32⟩
  | .hbm, ⟨13, _⟩ => ⟨S1048576, .i32⟩
  | .hbm, ⟨14, _⟩ => ⟨S_, .i32⟩
  | .hbm, ⟨15, _⟩ => ⟨S1048576, .i32⟩
  | .hbm, ⟨16, _⟩ => ⟨S1048576, .i1⟩
  | .hbm, ⟨17, _⟩ => ⟨S_, .i32⟩
  | .hbm, ⟨18, _⟩ => ⟨S1048576, .i32⟩
  | .hbm, ⟨19, _⟩ => ⟨S1048576, .i32⟩
  | .hbm, ⟨20, _⟩ => ⟨S1048576, .i32⟩
  | .hbm, ⟨21, _⟩ => ⟨S1048576x1, .i32⟩
  | .hbm, ⟨22, _⟩ => ⟨S1048576x128, .f32⟩
  | .hbm, ⟨23, _⟩ => ⟨S_, .f32⟩
  | .hbm, ⟨24, _⟩ => ⟨S65536x128, .f32⟩
  | .hbm, ⟨25, _⟩ => ⟨S1048576x1, .i32⟩
  | .hbm, ⟨26, _⟩ => ⟨S65536x128, .f32⟩
  | .hbm, ⟨27, _⟩ => ⟨S65536x128, .f32⟩
  | .hbm, ⟨28, _⟩ => ⟨S65536x128, .f32⟩
  | .hbm, ⟨29, _⟩ => ⟨S_, .i32⟩
  | .hbm, ⟨30, _⟩ => ⟨S1048576, .i32⟩
  | .hbm, ⟨31, _⟩ => ⟨S1048576, .i1⟩
  | .hbm, ⟨32, _⟩ => ⟨S_, .i32⟩
  | .hbm, ⟨33, _⟩ => ⟨S1048576, .i32⟩
  | .hbm, ⟨34, _⟩ => ⟨S1048576, .i32⟩
  | .hbm, ⟨35, _⟩ => ⟨S1048576, .i32⟩
  | .hbm, ⟨36, _⟩ => ⟨S1048576x1, .i32⟩
  | .hbm, ⟨37, _⟩ => ⟨S1048576x128, .f32⟩
  | .hbm, ⟨38, _⟩ => ⟨S_, .i32⟩
  | .hbm, ⟨39, _⟩ => ⟨S1048576, .i32⟩
  | .hbm, ⟨40, _⟩ => ⟨S1048576, .i1⟩
  | .hbm, ⟨41, _⟩ => ⟨S_, .i32⟩
  | .hbm, ⟨42, _⟩ => ⟨S1048576, .i32⟩
  | .hbm, ⟨43, _⟩ => ⟨S1048576, .i32⟩
  | .hbm, ⟨44, _⟩ => ⟨S1048576, .i32⟩
  | .hbm, ⟨45, _⟩ => ⟨S1048576x1, .i32⟩
  | .hbm, ⟨46, _⟩ => ⟨S1048576x128, .f32⟩
  | .hbm, ⟨47, _⟩ => ⟨S1048576x128, .f32⟩
  | .hbm, ⟨48, _⟩ => ⟨S_, .f32⟩
  | .hbm, ⟨49, _⟩ => ⟨S65536x128, .f32⟩
  | .hbm, ⟨50, _⟩ => ⟨S1048576x1, .i32⟩
  | .hbm, ⟨51, _⟩ => ⟨S65536x128, .f32⟩
  | .hbm, ⟨52, _⟩ => ⟨S65536x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S128x128, .f32⟩
  | .local _ .vmem, ⟨12, _⟩ => ⟨S128x128, .f32⟩
  | .local _ .vmem, ⟨13, _⟩ => ⟨S1x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S128x128, .f32⟩
  | .local _ .vmem, ⟨27, _⟩ => ⟨S128x128, .f32⟩
  | .local _ .vmem, ⟨28, _⟩ => ⟨S1x128, .f32⟩
  | .local _ .vmem, ⟨29, _⟩ => ⟨S2048x128, .f32⟩
  | .local _ .vmem, ⟨30, _⟩ => ⟨S2048x128, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_cst : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10_0 : Ref sig .tc := ⟨.hbm, 27, rfl⟩
abbrev main_call0_v10_1 : Ref sig .tc := ⟨.hbm, 28, rfl⟩
abbrev main_call0_c_1 : Ref sig .tc := ⟨.hbm, 29, rfl⟩
abbrev main_call0_v11 : Ref sig .tc := ⟨.hbm, 30, rfl⟩
abbrev main_call0_v12 : Ref sig .tc := ⟨.hbm, 31, rfl⟩
abbrev main_call0_c_2 : Ref sig .tc := ⟨.hbm, 32, rfl⟩
abbrev main_call0_v13 : Ref sig .tc := ⟨.hbm, 33, rfl⟩
abbrev main_call0_v14 : Ref sig .tc := ⟨.hbm, 34, rfl⟩
abbrev main_call0_v15 : Ref sig .tc := ⟨.hbm, 35, rfl⟩
abbrev main_call0_v16 : Ref sig .tc := ⟨.hbm, 36, rfl⟩
abbrev main_call0_v17 : Ref sig .tc := ⟨.hbm, 37, rfl⟩
abbrev main_call0_c_3 : Ref sig .tc := ⟨.hbm, 38, rfl⟩
abbrev main_call0_v18 : Ref sig .tc := ⟨.hbm, 39, rfl⟩
abbrev main_call0_v19 : Ref sig .tc := ⟨.hbm, 40, rfl⟩
abbrev main_call0_c_4 : Ref sig .tc := ⟨.hbm, 41, rfl⟩
abbrev main_call0_v20 : Ref sig .tc := ⟨.hbm, 42, rfl⟩
abbrev main_call0_v21 : Ref sig .tc := ⟨.hbm, 43, rfl⟩
abbrev main_call0_v22 : Ref sig .tc := ⟨.hbm, 44, rfl⟩
abbrev main_call0_v23 : Ref sig .tc := ⟨.hbm, 45, rfl⟩
abbrev main_call0_v24 : Ref sig .tc := ⟨.hbm, 46, rfl⟩
abbrev main_call0_v25 : Ref sig .tc := ⟨.hbm, 47, rfl⟩
abbrev main_call0_cst_5 : Ref sig .tc := ⟨.hbm, 48, rfl⟩
abbrev main_call0_v26 : Ref sig .tc := ⟨.hbm, 49, rfl⟩
abbrev main_call0_v27 : Ref sig .tc := ⟨.hbm, 50, rfl⟩
abbrev main_call0_v28 : Ref sig .tc := ⟨.hbm, 51, rfl⟩
abbrev main_v0 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg7_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem5_0 : DmaSem sig := 27
abbrev cc1_sem6_0 : DmaSem sig := 28
abbrev cc1_sem7_0 : DmaSem sig := 29
abbrev cc1_sem7_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2048x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S65536x128 : S_.BroadcastsInDim S65536x128 (![] : Fin 0 → Fin S65536x128.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  bitsLt_bf16_f32 : FTy.bits .bf16 < FTy.bits .f32
  broadcasts_S1x128_S2048x128 : S1x128.Broadcasts S2048x128
  gather_S65536x128_S1048576x1_S1048576x128_1_0_n_n_0_1_1128_wf : GatherDims.WF S65536x128 S1048576x1 S1048576x128 [1] [0] [] [0] [] 1 ![1, 128]
  scatter_S65536x128_S1048576x1_S1048576x128_1_0_0_1_wf : ScatterDims.WF S65536x128 S1048576x1 S1048576x128 [1] [0] [0] 1
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S65536x128.size a
  hwx0_0 : ∀ i : grid0.Coords, EltTy.bits .f32 = 32 ∨ (Rect.block (s := S65536x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S65536x128.size a
  hwx0_1 : ∀ i : grid0.Coords, EltTy.bits .f32 = 32 ∨ (Rect.block (s := S65536x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S65536x128.size a
  hwx0_2 : ∀ i : grid0.Coords, EltTy.bits .f32 = 32 ∨ (Rect.block (s := S65536x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S65536x128.size a
  hwx0_3 : ∀ i : grid0.Coords, EltTy.bits .f32 = 32 ∨ (Rect.block (s := S65536x128) S2048x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x128.size a ≤ S65536x128.size a
  hwx0_10 : ∀ i : grid0.Coords, EltTy.bits .f32 = 32 ∨ (Rect.block (s := S65536x128) S2048x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x128.size a ≤ S65536x128.size a
  hwx0_11 : ∀ i : grid0.Coords, EltTy.bits .f32 = 32 ∨ (Rect.block (s := S65536x128) S2048x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S65536x128.size a
  hwx1_0 : ∀ i : grid1.Coords, EltTy.bits .f32 = 32 ∨ (Rect.block (s := S65536x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S65536x128.size a
  hwx1_1 : ∀ i : grid1.Coords, EltTy.bits .f32 = 32 ∨ (Rect.block (s := S65536x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S65536x128.size a
  hwx1_2 : ∀ i : grid1.Coords, EltTy.bits .f32 = 32 ∨ (Rect.block (s := S65536x128) S2048x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S65536x128.size a
  hwx1_3 : ∀ i : grid1.Coords, EltTy.bits .f32 = 32 ∨ (Rect.block (s := S65536x128) S2048x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2048x128.size a ≤ S65536x128.size a
  hwx1_7 : ∀ i : grid1.Coords, EltTy.bits .f32 = 32 ∨ (Rect.block (s := S65536x128) S2048x128.size (cc1_transform_7 i) (hinb1_7 i)).WholeWords (EltTy.packing .f32)

variable [Facts₀]

def gather_S65536x128_S1048576x1_S1048576x128_1_0_n_n_0_1_1128 : GatherDims S65536x128 S1048576x1 S1048576x128 where
  offsetDims := [1]
  collapsedSliceDims := [0]
  operandBatchingDims := []
  startIndicesBatchingDims := []
  startIndexMap := [0]
  indexVectorDim := 1
  sliceSizes := ![1, 128]
  wf := gather_S65536x128_S1048576x1_S1048576x128_1_0_n_n_0_1_1128_wf
def scatter_S65536x128_S1048576x1_S1048576x128_1_0_0_1 : ScatterDims S65536x128 S1048576x1 S1048576x128 where
  updateWindowDims := [1]
  insertedWindowDims := [0]
  scatterDimsToOperandDims := [0]
  indexVectorDim := 1
  wf := scatter_S65536x128_S1048576x1_S1048576x128_1_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg1) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v9) S2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v10_0) S2048x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_call0_v10_1) S2048x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_call0_v28) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v10_0) S2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v9) S2048x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v0) S2048x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S65536x128 : Shape := ⟨2, ![65536, 128]⟩
abbrev S128x128 : Shape := ⟨2, ![128, 128]⟩
abbrev S1x128 : Shape := ⟨2, ![1, 128]⟩
abbrev S1048576 : Shape := ⟨1, ![1048576]⟩
abbrev S_ : Shape := ⟨0, ![]⟩
abbrev S1048576x1 : Shape := ⟨2, ![1048576, 1]⟩
abbrev S1048576x128 : Shape := ⟨2, ![1048576, 128]⟩

abbrev nBuf : Space → Nat
  | .hbm => 88
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S65536x128, .f32⟩
  | .hbm, ⟨2, _⟩ => ⟨S65536x128, .f32⟩
  | .hbm, ⟨3, _⟩ => ⟨S128x128, .f32⟩
  | .hbm, ⟨4, _⟩ => ⟨S128x128, .f32⟩
  | .hbm, ⟨5, _⟩ => ⟨S1x128, .f32⟩
  | .hbm, ⟨6, _⟩ => ⟨S128x128, .f32⟩
  | .hbm, ⟨7, _⟩ => ⟨S128x128, .f32⟩
  | .hbm, ⟨8, _⟩ => ⟨S1x128, .f32⟩
  | .hbm, ⟨9, _⟩ => ⟨S128x128, .f32⟩
  | .hbm, ⟨10, _⟩ => ⟨S128x128, .f32⟩
  | .hbm, ⟨11, _⟩ => ⟨S1x128, .f32⟩
  | .hbm, ⟨12, _⟩ => ⟨S1048576, .i32⟩
  | .hbm, ⟨13, _⟩ => ⟨S1048576, .i32⟩
  | .hbm, ⟨14, _⟩ => ⟨S_, .i32⟩
  | .hbm, ⟨15, _⟩ => ⟨S1048576, .i32⟩
  | .hbm, ⟨16, _⟩ => ⟨S1048576, .i1⟩
  | .hbm, ⟨17, _⟩ => ⟨S_, .i32⟩
  | .hbm, ⟨18, _⟩ => ⟨S1048576, .i32⟩
  | .hbm, ⟨19, _⟩ => ⟨S1048576, .i32⟩
  | .hbm, ⟨20, _⟩ => ⟨S1048576, .i32⟩
  | .hbm, ⟨21, _⟩ => ⟨S1048576x1, .i32⟩
  | .hbm, ⟨22, _⟩ => ⟨S1048576x128, .f32⟩
  | .hbm, ⟨23, _⟩ => ⟨S_, .f32⟩
  | .hbm, ⟨24, _⟩ => ⟨S65536x128, .f32⟩
  | .hbm, ⟨25, _⟩ => ⟨S1048576x1, .i32⟩
  | .hbm, ⟨26, _⟩ => ⟨S65536x128, .f32⟩
  | .hbm, ⟨27, _⟩ => ⟨S65536x128, .f32⟩
  | .hbm, ⟨28, _⟩ => ⟨S65536x128, .f32⟩
  | .hbm, ⟨29, _⟩ => ⟨S65536x128, .f32⟩
  | .hbm, ⟨30, _⟩ => ⟨S65536x128, .f32⟩
  | .hbm, ⟨31, _⟩ => ⟨S65536x128, .f32⟩
  | .hbm, ⟨32, _⟩ => ⟨S65536x128, .f32⟩
  | .hbm, ⟨33, _⟩ => ⟨S65536x128, .f32⟩
  | .hbm, ⟨34, _⟩ => ⟨S_, .f32⟩
  | .hbm, ⟨35, _⟩ => ⟨S65536x128, .f32⟩
  | .hbm, ⟨36, _⟩ => ⟨S65536x128, .f32⟩
  | .hbm, ⟨37, _⟩ => ⟨S_, .f32⟩
  | .hbm, ⟨38, _⟩ => ⟨S65536x128, .f32⟩
  | .hbm, ⟨39, _⟩ => ⟨S65536x128, .f32⟩
  | .hbm, ⟨40, _⟩ => ⟨S65536x128, .f32⟩
  | .hbm, ⟨41, _⟩ => ⟨S65536x128, .f32⟩
  | .hbm, ⟨42, _⟩ => ⟨S65536x128, .f32⟩
  | .hbm, ⟨43, _⟩ => ⟨S65536x128, .f32⟩
  | .hbm, ⟨44, _⟩ => ⟨S65536x128, .f32⟩
  | .hbm, ⟨45, _⟩ => ⟨S_, .i32⟩
  | .hbm, ⟨46, _⟩ => ⟨S1048576, .i32⟩
  | .hbm, ⟨47, _⟩ => ⟨S1048576, .i1⟩
  | .hbm, ⟨48, _⟩ => ⟨S_, .i32⟩
  | .hbm, ⟨49, _⟩ => ⟨S1048576, .i32⟩
  | .hbm, ⟨50, _⟩ => ⟨S1048576, .i32⟩
  | .hbm, ⟨51, _⟩ => ⟨S1048576, .i32⟩
  | .hbm, ⟨52, _⟩ => ⟨S1048576x1, .i32⟩
  | .hbm, ⟨53, _⟩ => ⟨S1048576x128, .f32⟩
  | .hbm, ⟨54, _⟩ => ⟨S1048576x128, .f32⟩
  | .hbm, ⟨55, _⟩ => ⟨S1048576x128, .f32⟩
  | .hbm, ⟨56, _⟩ => ⟨S_, .f32⟩
  | .hbm, ⟨57, _⟩ => ⟨S1048576x128, .f32⟩
  | .hbm, ⟨58, _⟩ => ⟨S1048576x128, .f32⟩
  | .hbm, ⟨59, _⟩ => ⟨S_, .f32⟩
  | .hbm, ⟨60, _⟩ => ⟨S1048576x128, .f32⟩
  | .hbm, ⟨61, _⟩ => ⟨S1048576x128, .f32⟩
  | .hbm, ⟨62, _⟩ => ⟨S_, .i32⟩
  | .hbm, ⟨63, _⟩ => ⟨S1048576, .i32⟩
  | .hbm, ⟨64, _⟩ => ⟨S1048576, .i1⟩
  | .hbm, ⟨65, _⟩ => ⟨S_, .i32⟩
  | .hbm, ⟨66, _⟩ => ⟨S1048576, .i32⟩
  | .hbm, ⟨67, _⟩ => ⟨S1048576, .i32⟩
  | .hbm, ⟨68, _⟩ => ⟨S1048576, .i32⟩
  | .hbm, ⟨69, _⟩ => ⟨S1048576x1, .i32⟩
  | .hbm, ⟨70, _⟩ => ⟨S1048576x128, .f32⟩
  | .hbm, ⟨71, _⟩ => ⟨S1048576x128, .f32⟩
  | .hbm, ⟨72, _⟩ => ⟨S_, .f32⟩
  | .hbm, ⟨73, _⟩ => ⟨S65536x128, .f32⟩
  | .hbm, ⟨74, _⟩ => ⟨S1048576x1, .i32⟩
  | .hbm, ⟨75, _⟩ => ⟨S65536x128, .f32⟩
  | .hbm, ⟨76, _⟩ => ⟨S65536x128, .f32⟩
  | .hbm, ⟨77, _⟩ => ⟨S65536x128, .f32⟩
  | .hbm, ⟨78, _⟩ => ⟨S65536x128, .f32⟩
  | .hbm, ⟨79, _⟩ => ⟨S65536x128, .f32⟩
  | .hbm, ⟨80, _⟩ => ⟨S65536x128, .f32⟩
  | .hbm, ⟨81, _⟩ => ⟨S65536x128, .f32⟩
  | .hbm, ⟨82, _⟩ => ⟨S_, .f32⟩
  | .hbm, ⟨83, _⟩ => ⟨S65536x128, .f32⟩
  | .hbm, ⟨84, _⟩ => ⟨S65536x128, .f32⟩
  | .hbm, ⟨85, _⟩ => ⟨S65536x128, .f32⟩
  | .hbm, ⟨86, _⟩ => ⟨S65536x128, .f32⟩
  | .hbm, ⟨87, _⟩ => ⟨S65536x128, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_3 : Ref sig .tc := ⟨.hbm, 45, rfl⟩
abbrev main_v26 : Ref sig .tc := ⟨.hbm, 46, rfl⟩
abbrev main_v27 : Ref sig .tc := ⟨.hbm, 47, rfl⟩
abbrev main_c_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_5 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_c_7 : Ref sig .tc := ⟨.hbm, 62, rfl⟩
abbrev main_v39 : Ref sig .tc := ⟨.hbm, 63, rfl⟩
abbrev main_v40 : Ref sig .tc := ⟨.hbm, 64, rfl⟩
abbrev main_c_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_10 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩

abbrev nD : Nat := 1
abbrev τ : Topo := Topo.v7x

variable {F : FTy → Type} [FloatOps F]

class Facts₀ : Prop where
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S65536x128 : S_.BroadcastsInDim S65536x128 (![] : Fin 0 → Fin S65536x128.rank)
  bcast_S1x128_S65536x128_0_1 : S1x128.BroadcastsInDim S65536x128 (![0, 1] : Fin 2 → Fin S65536x128.rank)
  bcast_S_S1048576x128 : S_.BroadcastsInDim S1048576x128 (![] : Fin 0 → Fin S1048576x128.rank)
  gather_S65536x128_S1048576x1_S1048576x128_1_0_n_n_0_1_1128_wf : GatherDims.WF S65536x128 S1048576x1 S1048576x128 [1] [0] [] [0] [] 1 ![1, 128]
  scatter_S65536x128_S1048576x1_S1048576x128_1_0_0_1_wf : ScatterDims.WF S65536x128 S1048576x1 S1048576x128 [1] [0] [0] 1
  dot_S65536x128_S128x128_S65536x128_1_0_0_1_n_n_wf : DotDims.WF S65536x128 S128x128 S65536x128 [1] [0] [0] [1] [] []

variable [Facts₀]

def gather_S65536x128_S1048576x1_S1048576x128_1_0_n_n_0_1_1128 : GatherDims S65536x128 S1048576x1 S1048576x128 where
  offsetDims := [1]
  collapsedSliceDims := [0]
  operandBatchingDims := []
  startIndicesBatchingDims := []
  startIndexMap := [0]
  indexVectorDim := 1
  sliceSizes := ![1, 128]
  wf := gather_S65536x128_S1048576x1_S1048576x128_1_0_n_n_0_1_1128_wf
def scatter_S65536x128_S1048576x1_S1048576x128_1_0_0_1 : ScatterDims S65536x128 S1048576x1 S1048576x128 where
  updateWindowDims := [1]
  insertedWindowDims := [0]
  scatterDimsToOperandDims := [0]
  indexVectorDim := 1
  wf := scatter_S65536x128_S1048576x1_S1048576x128_1_0_0_1_wf
def dot_S65536x128_S128x128_S65536x128_1_0_0_1_n_n : DotDims S65536x128 S128x128 S65536x128 where
  lhsContracting := [1]
  rhsContracting := [0]
  lhsNonContracting := [0]
  rhsNonContracting := [1]
  lhsBatch := []
  rhsBatch := []
  wf := dot_S65536x128_S128x128_S65536x128_1_0_0_1_n_n_wf

class Facts : Prop extends Facts₀ where

variable [Facts]
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.GruSpec.lean ====
/-
  One step of a tree-structured gated recurrent unit over a graph, as functions over the extended reals.

  For node tables A, X (R rows of 128 entries), weight matrices Wl, Wr (128 × 128) and a bias row b, the AFFINE part
  at (p, q) is   Σₖ A(p,k)·Wl(k,q) + Σₖ X(p,k)·Wr(k,q) + b(q)   (both products first, then the bias). A GATE is the
  logistic function of an affine part; the candidate state is the hyperbolic tangent of one; the new state mixes
  the aggregated neighbour state S and the candidate H by the gate Z:   (1 − Z)·S + Z·tanh H.

  Proved here: a vector-unit tile that forms the two products into zero accumulators (operands narrowed to bf16,
  which is the identity on extended reals), adds them and adds the bias row spread over the rows, computes the
  affine part entry by entry; so does the host's form with two whole-table products; the host's
  1 / (1 + exp(−y)) is the logistic function of y; and an affine part at a row reads only that row of A and X.
  No finiteness is used anywhere: every step is an identity of extended reals operation by operation.
-/
import proofs.«150984_j5798205849962_1_alg».proof.Proof.LibPlainProduct
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.TreeGru

open Idealize.ShloMosaic Idealize.ShloMosaic.ValueIdx

variable {R : ℕ}

/-- A table of R rows of 128 single-precision entries, a weight matrix, a bias row. -/
abbrev Tab (R : ℕ) := FVec Ideal ⟨2, ![R, 128]⟩ .f32
abbrev Mat := FVec Ideal ⟨2, ![128, 128]⟩ .f32
abbrev Row := FVec Ideal ⟨2, ![1, 128]⟩ .f32

/-- The affine part at row p, column q: both products, then the bias. -/
def affAt (A X : Tab R) (Wl Wr : Mat) (b : Row) (p : Fin R) (q : Fin 128) : EReal :=
  (∑ k : Fin 128, A (ix2 p k) * Wl (ix2 k q) + ∑ k : Fin 128, X (ix2 p k) * Wr (ix2 k q)) + b (ix2 (0 : Fin 1) q)

/-- The affine part as one table. -/
def aff (A X : Tab R) (Wl Wr : Mat) (b : Row) : Tab R := fun i => affAt A X Wl Wr b (i 0) (i 1)

theorem aff_apply (A X : Tab R) (Wl Wr : Mat) (b : Row) (p : Fin R) (q : Fin 128) :
    aff A X Wl Wr b (ix2 p q) = affAt A X Wl Wr b p q := rfl

/-- The logistic function entry by entry. -/
def sig {S : Shape} (Y : FVec Ideal S .f32) : FVec Ideal S .f32 := fun i => Ideal.logistic (Y i)

/-- A gate: the logistic function of an affine part. -/
def gate (A X : Tab R) (Wl Wr : Mat) (b : Row) : Tab R := sig (aff A X Wl Wr b)

/-- The new state: (1 − Z)·S + Z·tanh H, the one kept as its single-precision pattern. -/
def mix (Z S H : Tab R) : Tab R :=
  fun i => (Ideal.ofBits .f32 0x3F800000#32 - Z i) * S i + Z i * Ideal.tanh (H i)

/-- An affine part at a row reads only that row of its two tables. -/
theorem affAt_congr {R' : ℕ} (A X : Tab R) (A' X' : Tab R') (Wl Wr : Mat) (b : Row) (p : Fin R) (p' : Fin R') (q : Fin 128)
    (hA : ∀ k, A (ix2 p k) = A' (ix2 p' k)) (hX : ∀ k, X (ix2 p k) = X' (ix2 p' k)) :
    affAt A X Wl Wr b p q = affAt A' X' Wl Wr b p' q := by
  unfold affAt
  simp only [hA, hX]

/-! ## A block of rows against the whole tables -/

/-- A gate at a row of a block of rows is the gate of the whole tables at the row the block's row is: the block's
    row p is the tables' row o + p. -/
theorem gate_block {R' : ℕ} (A X : Tab R') (a x : Tab R) (Wl Wr : Mat) (b : Row) (o : ℕ)
    (ha : ∀ (p : Fin R) (p' : Fin R') (k : Fin 128), p'.val = o + p.val → a (ix2 p k) = A (ix2 p' k))
    (hx : ∀ (p : Fin R) (p' : Fin R') (k : Fin 128), p'.val = o + p.val → x (ix2 p k) = X (ix2 p' k))
    (j : (⟨2, ![R, 128]⟩ : Shape).Idx) (i : (⟨2, ![R', 128]⟩ : Shape).Idx)
    (h0 : (i 0).val = o + (j 0).val) (h1 : (i 1).val = (j 1).val) :
    gate a x Wl Wr b j = gate A X Wl Wr b i := by
  obtain ⟨p, q, rfl⟩ : ∃ (p : Fin R) (q : Fin 128), j = ix2 p q := ⟨j 0, j 1, eq_ix2 j⟩
  obtain ⟨p', q', rfl⟩ : ∃ (p' : Fin R') (q' : Fin 128), i = ix2 p' q' := ⟨i 0, i 1, eq_ix2 i⟩
  obtain rfl : q' = q := Fin.ext h1
  show Ideal.logistic (affAt a x Wl Wr b p q') = Ideal.logistic (affAt A X Wl Wr b p' q')
  rw [affAt_congr a x A X Wl Wr b p p' q' (fun k => ha p p' k h0) (fun k => hx p p' k h0)]

/-- The new state at a row of a block of rows is the new state of the whole tables at the row the block's row is. -/
theorem mix_block {R' : ℕ} (Z S A X : Tab R') (z s a x : Tab R) (Wl Wr : Mat) (b : Row) (o : ℕ)
    (hz : ∀ (p : Fin R) (p' : Fin R') (k : Fin 128), p'.val = o + p.val → z (ix2 p k) = Z (ix2 p' k))
    (hs : ∀ (p : Fin R) (p' : Fin R') (k : Fin 128), p'.val = o + p.val → s (ix2 p k) = S (ix2 p' k))
    (ha : ∀ (p : Fin R) (p' : Fin R') (k : Fin 128), p'.val = o + p.val → a (ix2 p k) = A (ix2 p' k))
    (hx : ∀ (p : Fin R) (p' : Fin R') (k : Fin 128), p'.val = o + p.val → x (ix2 p k) = X (ix2 p' k))
    (j : (⟨2, ![R, 128]⟩ : Shape).Idx) (i : (⟨2, ![R', 128]⟩ : Shape).Idx)
    (h0 : (i 0).val = o + (j 0).val) (h1 : (i 1).val = (j 1).val) :
    mix z s (aff a x Wl Wr b) j = mix Z S (aff A X Wl Wr b) i := by
  obtain ⟨p, q, rfl⟩ : ∃ (p : Fin R) (q : Fin 128), j = ix2 p q := ⟨j 0, j 1, eq_ix2 j⟩
  obtain ⟨p', q', rfl⟩ : ∃ (p' : Fin R') (q' : Fin 128), i = ix2 p' q' := ⟨i 0, i 1, eq_ix2 i⟩
  obtain rfl : q' = q := Fin.ext h1
  show (Ideal.ofBits .f32 0x3F800000#32 - z (ix2 p q')) * s (ix2 p q') + z (ix2 p q') * Ideal.tanh (affAt a x Wl Wr b p q')
     = (Ideal.ofBits .f32 0x3F800000#32 - Z (ix2 p' q')) * S (ix2 p' q') + Z (ix2 p' q') * Ideal.tanh (affAt A X Wl Wr b p' q')
  rw [hz p p' q' h0, hs p p' q' h0, affAt_congr a x A X Wl Wr b p p' q' (fun k => ha p p' k h0) (fun k => hx p p' k h0)]

/-! ## The vector-unit tile -/

/-- The tile's affine part at an entry: two products into zero accumulators, added, plus the bias row spread over
    the rows. -/
theorem tile_aff (d : DotDims ⟨2, ![R, 128]⟩ ⟨2, ![128, 128]⟩ ⟨2, ![R, 128]⟩) (hd : d = DotDims.plain R 128 128)
    (h : FTy.bf16.bits < FTy.f32.bits) (hb : (⟨2, ![1, 128]⟩ : Shape).Broadcasts ⟨2, ![R, 128]⟩)
    (a x : Tab R) (wl wr : Mat) (b : Row) :
    addf (addf (matmul (F := Ideal) d none (truncf .bf16 a h) (truncf .bf16 wl h)
                  (constant (F := Ideal) ⟨2, ![R, 128]⟩ .f32 0x00000000#32))
               (matmul (F := Ideal) d none (truncf .bf16 x h) (truncf .bf16 wr h)
                  (constant (F := Ideal) ⟨2, ![R, 128]⟩ .f32 0x00000000#32)))
         (broadcastTo ⟨2, ![R, 128]⟩ b hb)
      = aff a x wl wr b := by
  subst hd
  funext i
  obtain ⟨p, q, rfl⟩ : ∃ (p : Fin R) (q : Fin 128), i = ix2 p q := ⟨i 0, i 1, eq_ix2 i⟩
  rw [addf_apply, addf_apply, Cert.PlainProduct.matmul_zero_apply, Cert.PlainProduct.matmul_zero_apply,
    broadcastTo_1b_ab_apply]
  rfl

/-- The tile's gate: the logistic operation on the tile's affine part. -/
theorem tile_gate (d : DotDims ⟨2, ![R, 128]⟩ ⟨2, ![128, 128]⟩ ⟨2, ![R, 128]⟩) (hd : d = DotDims.plain R 128 128)
    (h : FTy.bf16.bits < FTy.f32.bits) (hb : (⟨2, ![1, 128]⟩ : Shape).Broadcasts ⟨2, ![R, 128]⟩)
    (a x : Tab R) (wl wr : Mat) (b : Row) :
    logistic (F := Ideal) (addf (addf (matmul (F := Ideal) d none (truncf .bf16 a h) (truncf .bf16 wl h)
                  (constant (F := Ideal) ⟨2, ![R, 128]⟩ .f32 0x00000000#32))
               (matmul (F := Ideal) d none (truncf .bf16 x h) (truncf .bf16 wr h)
                  (constant (F := Ideal) ⟨2, ![R, 128]⟩ .f32 0x00000000#32)))
         (broadcastTo ⟨2, ![R, 128]⟩ b hb))
      = gate a x wl wr b := by
  rw [tile_aff d hd h hb]
  rfl

/-- The tile's new state: the candidate is the hyperbolic tangent of the tile's affine part; the one is a splat of
    its single-precision pattern. -/
theorem tile_mix (d : DotDims ⟨2, ![R, 128]⟩ ⟨2, ![128, 128]⟩ ⟨2, ![R, 128]⟩) (hd : d = DotDims.plain R 128 128)
    (h : FTy.bf16.bits < FTy.f32.bits) (hb : (⟨2, ![1, 128]⟩ : Shape).Broadcasts ⟨2, ![R, 128]⟩)
    (a x z s : Tab R) (wl wr : Mat) (b : Row) :
    addf (mulf (subf (broadcast ⟨2, ![R, 128]⟩ (Scalar.ofBits (F := Ideal) .f32 0x3F800000#32)) z) s)
         (mulf z (tanh (F := Ideal) (addf (addf (matmul (F := Ideal) d none (truncf .bf16 a h) (truncf .bf16 wl h)
                  (constant (F := Ideal) ⟨2, ![R, 128]⟩ .f32 0x00000000#32))
               (matmul (F := Ideal) d none (truncf .bf16 x h) (truncf .bf16 wr h)
                  (constant (F := Ideal) ⟨2, ![R, 128]⟩ .f32 0x00000000#32)))
         (broadcastTo ⟨2, ![R, 128]⟩ b hb))))
      = mix z s (aff a x wl wr b) := by
  rw [tile_aff d hd h hb]
  rfl

/-! ## The host's forms -/

/-- The host's affine part: two whole-table products, added, plus the bias row spread along the rows. -/
theorem host_aff (d : DotDims ⟨2, ![R, 128]⟩ ⟨2, ![128, 128]⟩ ⟨2, ![R, 128]⟩) (hd : d = DotDims.plain R 128 128)
    (hb : (⟨2, ![1, 128]⟩ : Shape).BroadcastsInDim ⟨2, ![R, 128]⟩ ![0, 1])
    (A X : Tab R) (Wl Wr : Mat) (b : Row) :
    addf (addf (Host.dotGeneral (F := Ideal) d none A Wl) (Host.dotGeneral (F := Ideal) d none X Wr))
         (broadcastInDim ⟨2, ![R, 128]⟩ ![0, 1] hb b)
      = aff A X Wl Wr b := by
  subst hd
  funext i
  obtain ⟨p, q, rfl⟩ : ∃ (p : Fin R) (q : Fin 128), i = ix2 p q := ⟨i 0, i 1, eq_ix2 i⟩
  rw [addf_apply, addf_apply, Cert.PlainProduct.dotGeneral_apply, Cert.PlainProduct.dotGeneral_apply,
    broadcastInDim_apply _ hb b (ix2 p q) (ix2 (0 : Fin 1) q) (fun a => by
      match a with
      | ⟨0, _⟩ => show 0 = if (1 : Nat) = 1 then 0 else p.val; rw [if_pos rfl]
      | ⟨1, _⟩ => show q.val = if (128 : Nat) = 1 then 0 else q.val; rw [if_neg (by decide)])]
  rfl

/-- The host's 1 / (1 + exp(−y)), the ones splats of the single-precision pattern, is the logistic function of y. -/
theorem host_sig {S : Shape} (hb : (⟨0, ![]⟩ : Shape).BroadcastsInDim S ![]) (Y : FVec Ideal S .f32) :
    Host.divf (broadcastInDim S ![] hb (constant (F := Ideal) ⟨0, ![]⟩ .f32 0x3F800000#32))
        (addf (broadcastInDim S ![] hb (constant (F := Ideal) ⟨0, ![]⟩ .f32 0x3F800000#32)) (Host.exp (Host.negf Y)))
      = sig Y := by
  funext i
  rw [hostDivf_apply, addf_apply, broadcastInDim_scalar_apply, constant_apply, Ideal.ofBits_one_f32]
  rfl

/-- The host's new state: the one is a splat of its single-precision pattern. -/
theorem host_mix (hb : (⟨0, ![]⟩ : Shape).BroadcastsInDim ⟨2, ![R, 128]⟩ ![]) (Z S H : Tab R) :
    addf (mulf (subf (broadcastInDim ⟨2, ![R, 128]⟩ ![] hb (constant (F := Ideal) ⟨0, ![]⟩ .f32 0x3F800000#32)) Z) S)
         (mulf Z (Host.tanh H))
      = mix Z S H := by
  funext i
  rw [addf_apply, mulf_apply, mulf_apply, subf_apply, broadcastInDim_scalar_apply, constant_apply]
  rfl

/-- Taking rows of a table and then the logistic function is the logistic function and then the rows: a gather
    only re-indexes its operand. -/
theorem gather_sig {s si t : Shape} {w : ℕ} (g : GatherDims s si t) (Y : FVec Ideal s .f32) (idx : IVec si w) :
    Host.gather g (sig Y) idx = sig (Host.gather g Y idx) := rfl

end Cert.TreeGru

end
-- ==== Proof.RegionGates.lean ====
/-
  The first kernel region's two outputs as whole tables. The region walks the node tables in 32 blocks of 2048 rows;
  at block t its body reads rows 2048·t … 2048·t + 2047 of the four node tables and the whole weight matrices and
  bias rows, and writes the same rows of the two gate tables. A gate at a row depends only on that row of its two
  node tables, so what block t writes back is block t of ONE table, the gate of the whole tables; the 32 blocks cover
  all 65536 rows, so after the region each output table IS that gate.
-/
import proofs.«150984_j5798205849962_1_alg».proof.Proof.Gen.KernelIdeal.Frame
import proofs.«150984_j5798205849962_1_alg».proof.Proof.GruSpec
import Idealize.ShloMosaic.Lib.Pipeline.Value

set_option maxRecDepth 16384

noncomputable section

namespace Cert.KernelIdeal.Gates

open Cert.KernelIdeal Cert.KernelIdeal.Gen Cert.TreeGru
open Idealize.ShloMosaic Idealize.ShloMosaic.TcCoe Idealize.ShloMosaic.ValueIdx Idealize.SL.Sem
open Idealize.ShloMosaic.Pipeline (Dat)

-- the buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-! ## The index maps, decided over the 32 grid points: a node table's block index is (t, 0), a weight's (0, 0) -/
theorem idx_0 : ∀ t : Fin cfg0.N, win0_0.index t (0 : Fin 2) = t.val ∧ win0_0.index t (1 : Fin 2) = 0 :=
  (by decide +kernel : ∀ t : Fin grid0.N, _)
theorem idx_1 : ∀ t : Fin cfg0.N, win0_1.index t (0 : Fin 2) = t.val ∧ win0_1.index t (1 : Fin 2) = 0 :=
  (by decide +kernel : ∀ t : Fin grid0.N, _)
theorem idx_2 : ∀ t : Fin cfg0.N, win0_2.index t (0 : Fin 2) = t.val ∧ win0_2.index t (1 : Fin 2) = 0 :=
  (by decide +kernel : ∀ t : Fin grid0.N, _)
theorem idx_3 : ∀ t : Fin cfg0.N, win0_3.index t (0 : Fin 2) = t.val ∧ win0_3.index t (1 : Fin 2) = 0 :=
  (by decide +kernel : ∀ t : Fin grid0.N, _)
theorem idx_10 : ∀ t : Fin cfg0.N, win0_10.index t (0 : Fin 2) = t.val ∧ win0_10.index t (1 : Fin 2) = 0 :=
  (by decide +kernel : ∀ t : Fin grid0.N, _)
theorem idx_11 : ∀ t : Fin cfg0.N, win0_11.index t (0 : Fin 2) = t.val ∧ win0_11.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)
theorem idx_8 : ∀ t : Fin cfg0.N, win0_8.index t (0 : Fin 2) = 0 ∧ win0_8.index t (1 : Fin 2) = 0 :=
  (by decide +kernel : ∀ t : Fin grid0.N, _)
theorem idx_9 : ∀ t : Fin cfg0.N, win0_9.index t (0 : Fin 2) = 0 ∧ win0_9.index t (1 : Fin 2) = 0 :=
  (by decide +kernel : ∀ t : Fin grid0.N, _)

/-! ## Each input block as rows of its table -/

/-- Row p of window 0's block at point t is row 2048·t + p of its table. -/
theorem blk_0 (c : Dev nD) (t : Fin cfg0.N) (p : Fin 2048) (p' : Fin 65536) (k : Fin 128) (hp : p'.val = t.val * 2048 + p.val) :
    (iblk0 V c 0 t : Tab 2048) (ix2 p k) = (V c main_arg1 : Tab 65536) (ix2 p' k) := by
  unfold iblk0
  rw [View.read_apply]
  show V c main_arg1 _ = V c main_arg1 _
  congr 1
  funext a
  apply Fin.ext
  obtain ⟨e0, e1⟩ := idx_0 t
  match a with
  | ⟨0, _⟩ => show win0_0.index t (0 : Fin 2) * 2048 + 1 * p.val = p'.val; rw [e0, hp]; omega
  | ⟨1, _⟩ => show win0_0.index t (1 : Fin 2) * 128 + 1 * k.val = k.val; rw [e1]; omega

/-- Row p of window 1's block at point t is row 2048·t + p of its table. -/
theorem blk_1 (c : Dev nD) (t : Fin cfg0.N) (p : Fin 2048) (p' : Fin 65536) (k : Fin 128) (hp : p'.val = t.val * 2048 + p.val) :
    (iblk0 V c 1 t : Tab 2048) (ix2 p k) = (V c main_arg2 : Tab 65536) (ix2 p' k) := by
  unfold iblk0
  rw [View.read_apply]
  show V c main_arg2 _ = V c main_arg2 _
  congr 1
  funext a
  apply Fin.ext
  obtain ⟨e0, e1⟩ := idx_1 t
  match a with
  | ⟨0, _⟩ => show win0_1.index t (0 : Fin 2) * 2048 + 1 * p.val = p'.val; rw [e0, hp]; omega
  | ⟨1, _⟩ => show win0_1.index t (1 : Fin 2) * 128 + 1 * k.val = k.val; rw [e1]; omega

/-- Row p of window 2's block at point t is row 2048·t + p of its table. -/
theorem blk_2 (c : Dev nD) (t : Fin cfg0.N) (p : Fin 2048) (p' : Fin 65536) (k : Fin 128) (hp : p'.val = t.val * 2048 + p.val) :
    (iblk0 V c 2 t : Tab 2048) (ix2 p k) = (V c main_arg0 : Tab 65536) (ix2 p' k) := by
  unfold iblk0
  rw [View.read_apply]
  show V c main_arg0 _ = V c main_arg0 _
  congr 1
  funext a
  apply Fin.ext
  obtain ⟨e0, e1⟩ := idx_2 t
  match a with
  | ⟨0, _⟩ => show win0_2.index t (0 : Fin 2) * 2048 + 1 * p.val = p'.val; rw [e0, hp]; omega
  | ⟨1, _⟩ => show win0_2.index t (1 : Fin 2) * 128 + 1 * k.val = k.val; rw [e1]; omega

/-- Row p of window 3's block at point t is row 2048·t + p of its table. -/
theorem blk_3 (c : Dev nD) (t : Fin cfg0.N) (p : Fin 2048) (p' : Fin 65536) (k : Fin 128) (hp : p'.val = t.val * 2048 + p.val) :
    (iblk0 V c 3 t : Tab 2048) (ix2 p k) = (V c main_call0_v9 : Tab 65536) (ix2 p' k) := by
  unfold iblk0
  rw [View.read_apply]
  show V c main_call0_v9 _ = V c main_call0_v9 _
  congr 1
  funext a
  apply Fin.ext
  obtain ⟨e0, e1⟩ := idx_3 t
  match a with
  | ⟨0, _⟩ => show win0_3.index t (0 : Fin 2) * 2048 + 1 * p.val = p'.val; rw [e0, hp]; omega
  | ⟨1, _⟩ => show win0_3.index t (1 : Fin 2) * 128 + 1 * k.val = k.val; rw [e1]; omega

/-- Window 4's block at any point is its whole array. -/
theorem blk_4 (c : Dev nD) (t : Fin cfg0.N) : (iblk0 V c 4 t : Mat) = (V c main_arg3 : Mat) := by
  funext y
  unfold iblk0
  rw [View.read_apply]
  show V c main_arg3 _ = V c main_arg3 y
  congr 1
  funext a
  apply Fin.ext
  obtain ⟨e0, e1⟩ := idx_4 t
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- Window 5's block at any point is its whole array. -/
theorem blk_5 (c : Dev nD) (t : Fin cfg0.N) : (iblk0 V c 5 t : Mat) = (V c main_arg4 : Mat) := by
  funext y
  unfold iblk0
  rw [View.read_apply]
  show V c main_arg4 _ = V c main_arg4 y
  congr 1
  funext a
  apply Fin.ext
  obtain ⟨e0, e1⟩ := idx_5 t
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

/-- Window 6's block at any point is its whole array. -/
theorem blk_6 (c : Dev nD) (t : Fin cfg0.N) : (iblk0 V c 6 t : Row) = (V c main_arg5 : Row) := by
  funext y
  unfold iblk0
  rw [View.read_apply]
  show V c main_arg5 _ = V c main_arg5 y
  congr 1
  funext a
  apply Fin.ext
  obtain ⟨e0, e1⟩ := idx_6 t
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega

/-- Window 7's block at any point is its whole array. -/
theorem blk_7 (c : Dev nD) (t : Fin cfg0.N) : (iblk0 V c 7 t : Mat) = (V c main_arg6 : Mat) := by
  funext y
  unfold iblk0
  rw [View.read_apply]
  show V c main_arg6 _ = V c main_arg6 y
  congr 1
  funext a
  apply Fin.ext
  obtain ⟨e0, e1⟩ := idx_7 t
  match a with
  | ⟨0, _⟩ => show win0_7.index t (0 : Fin 2) * 128 + 1 * (y 0).val = (y 0).val; rw [e0]; omega
  | ⟨1, _⟩ => show win0_7.index t (1 : Fin 2) * 128 + 1 * (y 1).val = (y 1).val; rw [e1]; omega

/-- Window 8's block at any point is its whole array. -/
theorem blk_8 (c : Dev nD) (t : Fin cfg0.N) : (iblk0 V c 8 t : Mat) = (V c main_arg7 : Mat) := by
  funext y
  unfold iblk0
  rw [View.read_apply]
  show V c main_arg7 _ = V c main_arg7 y
  congr 1
  funext a
  apply Fin.ext
  obtain ⟨e0, e1⟩ := idx_8 t
  match a with
  | ⟨0, _⟩ => show win0_8.index t (0 : Fin 2) * 128 + 1 * (y 0).val = (y 0).val; rw [e0]; omega
  | ⟨1, _⟩ => show win0_8.index t (1 : Fin 2) * 128 + 1 * (y 1).val = (y 1).val; rw [e1]; omega

/-- Window 9's block at any point is its whole array. -/
theorem blk_9 (c : Dev nD) (t : Fin cfg0.N) : (iblk0 V c 9 t : Row) = (V c main_arg8 : Row) := by
  funext y
  unfold iblk0
  rw [View.read_apply]
  show V c main_arg8 _ = V c main_arg8 y
  congr 1
  funext a
  apply Fin.ext
  obtain ⟨e0, e1⟩ := idx_9 t
  match a with
  | ⟨0, _⟩ => show win0_9.index t (0 : Fin 2) * 1 + 1 * (y 0).val = (y 0).val; rw [e0]; omega
  | ⟨1, _⟩ => show win0_9.index t (1 : Fin 2) * 128 + 1 * (y 1).val = (y 1).val; rw [e1]; omega

/-! ## Output window 10 -/

/-- The update gate: the logistic function of f_src·wz + s·uz + bz. -/
abbrev zTab (c : Dev nD) : Tab 65536 :=
  gate (V c main_arg1 : Tab 65536) (V c main_call0_v9 : Tab 65536) (V c main_arg3 : Mat) (V c main_arg4 : Mat) (V c main_arg5 : Row)

/-- What point t writes back is block t of that table. -/
theorem flushed_10 (c : Dev nD) (t : Fin cfg0.N) :
    (dat0 V c).flushed 10 t = ((cfg0.win 10).blk t).view.read (Elt Ideal) (zTab V c) := by
  show (cfg0.win 10).cut (grid0.coords t) ((dat0 V c).after 10 t) = _
  rw [after0_10]
  unfold out0_10
  rw [View.canon_unit_zero hz]
  simp only [View.ld_unit_zero (S := S2048x128) hz, View.ld_unit_zero (S := S128x128) hz, View.ld_unit_zero (S := S1x128) hz]
  unfold k0_pay1
  simp only [shapeCast_self]
  rw [tile_gate dot_S2048x128_S128x128_S2048x128_1_0_0_1_n_n rfl bitsLt_bf16_f32 broadcasts_S1x128_S2048x128
    (iblk0 V c 0 t) (iblk0 V c 3 t) (iblk0 V c 4 t) (iblk0 V c 5 t) (iblk0 V c 6 t)]
  rw [blk_4 V c t, blk_5 V c t, blk_6 V c t]
  funext j
  rw [View.read_apply]
  obtain ⟨e0, e1⟩ := idx_10 t
  refine gate_block (V c main_arg1 : Tab 65536) (V c main_call0_v9 : Tab 65536) (iblk0 V c 0 t : Tab 2048) (iblk0 V c 3 t : Tab 2048)
    (V c main_arg3 : Mat) (V c main_arg4 : Mat) (V c main_arg5 : Row) (t.val * 2048)
    (fun p p' k h => blk_0 V c t p p' k h) (fun p p' k h => blk_3 V c t p p' k h) j _ ?_ ?_
  · show win0_10.index t (0 : Fin 2) * 2048 + 1 * (j 0).val = t.val * 2048 + (j 0).val; rw [e0]; omega
  · show win0_10.index t (1 : Fin 2) * 128 + 1 * (j 1).val = (j 1).val; rw [e1]; omega

/-- An index of the table is in point t's block iff each coordinate is in the block's range on its axis. -/
theorem mem_blk_10 (t : Fin cfg0.N) (i : S65536x128.Idx) :
    i ∈ ((cfg0.win 10).blk t).view.set ↔ ∀ a : Fin 2, win0_10.index t a * S2048x128.size a ≤ (i a).val ∧ (i a).val < win0_10.index t a * S2048x128.size a + S2048x128.size a := by
  show i ∈ ((View.whole main_call0_v10_0).slice (win0_10.rect t)).set ↔ _
  rw [View.set_slice_whole, Rect.mem_set_unit]
  exact Iff.rfl

/-- Every row block is some point's. -/
theorem onto_10 : ∀ q : Fin 32, ∃ t : Fin cfg0.N, win0_10.index t = ![q.val, 0] :=
  (by decide +kernel : ∀ q : Fin 32, ∃ t : Fin grid0.N, win0_10.index t = ![q.val, 0])

/-- The 32 blocks cover the table: row r is in block r / 2048. -/
theorem cover_10 (i : S65536x128.Idx) :
    ∃ t : Fin cfg0.N, (cfg0.win 10).flush t = true ∧ i ∈ ((cfg0.win 10).blk t).view.set := by
  have hi0 : (i 0).val < 65536 := (i 0).isLt
  have hi1 : (i 1).val < 128 := (i 1).isLt
  obtain ⟨t, ht⟩ := onto_10 ⟨(i 0).val / 2048, by omega⟩
  have q0 : win0_10.index t (0 : Fin 2) = (i 0).val / 2048 := congrFun ht 0
  have q1 : win0_10.index t (1 : Fin 2) = 0 := congrFun ht 1
  refine ⟨t, flush0_10 t, ?_⟩
  rw [mem_blk_10]
  intro a
  match a with
  | ⟨0, _⟩ => show win0_10.index t (0 : Fin 2) * 2048 ≤ (i 0).val ∧ (i 0).val < win0_10.index t (0 : Fin 2) * 2048 + 2048; omega
  | ⟨1, _⟩ => show win0_10.index t (1 : Fin 2) * 128 ≤ (i 1).val ∧ (i 1).val < win0_10.index t (1 : Fin 2) * 128 + 128; omega

/-- After the region the output table is that one table. -/
theorem final_10 (c : Dev nD) : (dat0 V c).arrAt 10 cfg0.N = zTab V c :=
  (dat0 V c).arrAt_eq_of_cover 10 (zTab V c) (fun t _ => flushed_10 V c t) (cover_10)

/-! ## Output window 11 -/

/-- The reset gate at the nodes, before it is taken along the edges: the logistic function of f_dst·wr + h·ur + br. -/
abbrev rTab (c : Dev nD) : Tab 65536 :=
  gate (V c main_arg2 : Tab 65536) (V c main_arg0 : Tab 65536) (V c main_arg6 : Mat) (V c main_arg7 : Mat) (V c main_arg8 : Row)

/-- What point t writes back is block t of that table. -/
theorem flushed_11 (c : Dev nD) (t : Fin cfg0.N) :
    (dat0 V c).flushed 11 t = ((cfg0.win 11).blk t).view.read (Elt Ideal) (rTab V c) := by
  show (cfg0.win 11).cut (grid0.coords t) ((dat0 V c).after 11 t) = _
  rw [after0_11]
  unfold out0_11
  rw [View.canon_unit_zero hz]
  simp only [View.ld_unit_zero (S := S2048x128) hz, View.ld_unit_zero (S := S128x128) hz, View.ld_unit_zero (S := S1x128) hz]
  unfold k0_pay2
  dsimp only
  rw [tile_gate dot_S2048x128_S128x128_S2048x128_1_0_0_1_n_n rfl bitsLt_bf16_f32 broadcasts_S1x128_S2048x128
    (iblk0 V c 1 t) (iblk0 V c 2 t) (iblk0 V c 7 t) (iblk0 V c 8 t) (iblk0 V c 9 t)]
  rw [blk_7 V c t, blk_8 V c t, blk_9 V c t]
  funext j
  rw [View.read_apply]
  obtain ⟨e0, e1⟩ := idx_11 t
  refine gate_block (V c main_arg2 : Tab 65536) (V c main_arg0 : Tab 65536) (iblk0 V c 1 t : Tab 2048) (iblk0 V c 2 t : Tab 2048)
    (V c main_arg6 : Mat) (V c main_arg7 : Mat) (V c main_arg8 : Row) (t.val * 2048)
    (fun p p' k h => blk_1 V c t p p' k h) (fun p p' k h => blk_2 V c t p p' k h) j _ ?_ ?_
  · show win0_11.index t (0 : Fin 2) * 2048 + 1 * (j 0).val = t.val * 2048 + (j 0).val; rw [e0]; omega
  · show win0_11.index t (1 : Fin 2) * 128 + 1 * (j 1).val = (j 1).val; rw [e1]; omega

/-- An index of the table is in point t's block iff each coordinate is in the block's range on its axis. -/
theorem mem_blk_11 (t : Fin cfg0.N) (i : S65536x128.Idx) :
    i ∈ ((cfg0.win 11).blk t).view.set ↔ ∀ a : Fin 2, win0_11.index t a * S2048x128.size a ≤ (i a).val ∧ (i a).val < win0_11.index t a * S2048x128.size a + S2048x128.size a := by
  show i ∈ ((View.whole main_call0_v10_1).slice (win0_11.rect t)).set ↔ _
  rw [View.set_slice_whole, Rect.mem_set_unit]
  exact Iff.rfl

/-- Every row block is some point's. -/
theorem onto_11 : ∀ q : Fin 32, ∃ t : Fin cfg0.N, win0_11.index t = ![q.val, 0] :=
  (by decide +kernel : ∀ q : Fin 32, ∃ t : Fin grid0.N, win0_11.index t = ![q.val, 0])

/-- The 32 blocks cover the table: row r is in block r / 2048. -/
theorem cover_11 (i : S65536x128.Idx) :
    ∃ t : Fin cfg0.N, (cfg0.win 11).flush t = true ∧ i ∈ ((cfg0.win 11).blk t).view.set := by
  have hi0 : (i 0).val < 65536 := (i 0).isLt
  have hi1 : (i 1).val < 128 := (i 1).isLt
  obtain ⟨t, ht⟩ := onto_11 ⟨(i 0).val / 2048, by omega⟩
  have q0 : win0_11.index t (0 : Fin 2) = (i 0).val / 2048 := congrFun ht 0
  have q1 : win0_11.index t (1 : Fin 2) = 0 := congrFun ht 1
  refine ⟨t, flush0_11 t, ?_⟩
  rw [mem_blk_11]
  intro a
  match a with
  | ⟨0, _⟩ => show win0_11.index t (0 : Fin 2) * 2048 ≤ (i 0).val ∧ (i 0).val < win0_11.index t (0 : Fin 2) * 2048 + 2048; omega
  | ⟨1, _⟩ => show win0_11.index t (1 : Fin 2) * 128 ≤ (i 1).val ∧ (i 1).val < win0_11.index t (1 : Fin 2) * 128 + 128; omega

/-- After the region the output table is that one table. -/
theorem final_11 (c : Dev nD) : (dat0 V c).arrAt 11 cfg0.N = rTab V c :=
  (dat0 V c).arrAt_eq_of_cover 11 (rTab V c) (fun t _ => flushed_11 V c t) (cover_11)

end Cert.KernelIdeal.Gates

end
-- ==== Proof.RegionMix.lean ====
/-
  The second kernel region's output as a whole table. The region walks the node tables in 32 blocks of 2048 rows; at
  block t its body reads rows 2048·t … 2048·t + 2047 of the aggregated message table, the source features, the update
  gate and the aggregated neighbour state, and the whole candidate weights and bias row, and writes the same rows of
  the new state (1 − z)·s + z·tanh(f_src·w + m·u + b). A row of the new state depends only on that row of the four
  node tables, so what block t writes back is block t of ONE table; the 32 blocks cover all 65536 rows.
-/
import proofs.«150984_j5798205849962_1_alg».proof.Proof.Gen.KernelIdeal.Frame
import proofs.«150984_j5798205849962_1_alg».proof.Proof.GruSpec
import Idealize.ShloMosaic.Lib.Pipeline.Value

set_option maxRecDepth 16384

noncomputable section

namespace Cert.KernelIdeal.Mix

open Cert.KernelIdeal Cert.KernelIdeal.Gen Cert.TreeGru
open Idealize.ShloMosaic Idealize.ShloMosaic.TcCoe Idealize.ShloMosaic.ValueIdx Idealize.SL.Sem
open Idealize.ShloMosaic.Pipeline (Dat)

-- the buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-! ## The index maps, decided over the 32 grid points: a node table's block index is (t, 0), a weight's (0, 0) -/
theorem idx_0 : ∀ t : Fin cfg1.N, win1_0.index t (0 : Fin 2) = t.val ∧ win1_0.index t (1 : Fin 2) = 0 :=
  (by decide +kernel : ∀ t : Fin grid1.N, _)
theorem idx_1 : ∀ t : Fin cfg1.N, win1_1.index t (0 : Fin 2) = t.val ∧ win1_1.index t (1 : Fin 2) = 0 :=
  (by decide +kernel : ∀ t : Fin grid1.N, _)
theorem idx_2 : ∀ t : Fin cfg1.N, win1_2.index t (0 : Fin 2) = t.val ∧ win1_2.index t (1 : Fin 2) = 0 :=
  (by decide +kernel : ∀ t : Fin grid1.N, _)
theorem idx_3 : ∀ t : Fin cfg1.N, win1_3.index t (0 : Fin 2) = t.val ∧ win1_3.index t (1 : Fin 2) = 0 :=
  (by decide +kernel : ∀ t : Fin grid1.N, _)
theorem idx_7 : ∀ t : Fin cfg1.N, win1_7.index t (0 : Fin 2) = t.val ∧ win1_7.index t (1 : Fin 2) = 0 :=
  (by decide +kernel : ∀ t : Fin grid1.N, _)
theorem idx_4 : ∀ t : Fin cfg1.N, win1_4.index t (0 : Fin 2) = 0 ∧ win1_4.index t (1 : Fin 2) = 0 :=
  (by decide +kernel : ∀ t : Fin grid1.N, _)
theorem idx_5 : ∀ t : Fin cfg1.N, win1_5.index t (0 : Fin 2) = 0 ∧ win1_5.index t (1 : Fin 2) = 0 :=
  (by decide +kernel : ∀ t : Fin grid1.N, _)
theorem idx_6 : ∀ t : Fin cfg1.N, win1_6.index t (0 : Fin 2) = 0 ∧ win1_6.index t (1 : Fin 2) = 0 :=
  (by decide +kernel : ∀ t : Fin grid1.N, _)

/-! ## Each input block as rows of its table -/

/-- Row p of window 0's block at point t is row 2048·t + p of its table. -/
theorem blk_0 (c : Dev nD) (t : Fin cfg1.N) (p : Fin 2048) (p' : Fin 65536) (k : Fin 128) (hp : p'.val = t.val * 2048 + p.val) :
    (iblk1 V c 0 t : Tab 2048) (ix2 p k) = (V c main_call0_v28 : Tab 65536) (ix2 p' k) := by
  unfold iblk1
  rw [View.read_apply]
  show V c main_call0_v28 _ = V c main_call0_v28 _
  congr 1
  funext a
  apply Fin.ext
  obtain ⟨e0, e1⟩ := idx_0 t
  match a with
  | ⟨0, _⟩ => show win1_0.index t (0 : Fin 2) * 2048 + 1 * p.val = p'.val; rw [e0, hp]; omega
  | ⟨1, _⟩ => show win1_0.index t (1 : Fin 2) * 128 + 1 * k.val = k.val; rw [e1]; omega

/-- Row p of window 1's block at point t is row 2048·t + p of its table. -/
theorem blk_1 (c : Dev nD) (t : Fin cfg1.N) (p : Fin 2048) (p' : Fin 65536) (k : Fin 128) (hp : p'.val = t.val * 2048 + p.val) :
    (iblk1 V c 1 t : Tab 2048) (ix2 p k) = (V c main_arg1 : Tab 65536) (ix2 p' k) := by
  unfold iblk1
  rw [View.read_apply]
  show V c main_arg1 _ = V c main_arg1 _
  congr 1
  funext a
  apply Fin.ext
  obtain ⟨e0, e1⟩ := idx_1 t
  match a with
  | ⟨0, _⟩ => show win1_1.index t (0 : Fin 2) * 2048 + 1 * p.val = p'.val; rw [e0, hp]; omega
  | ⟨1, _⟩ => show win1_1.index t (1 : Fin 2) * 128 + 1 * k.val = k.val; rw [e1]; omega

/-- Row p of window 2's block at point t is row 2048·t + p of its table. -/
theorem blk_2 (c : Dev nD) (t : Fin cfg1.N) (p : Fin 2048) (p' : Fin 65536) (k : Fin 128) (hp : p'.val = t.val * 2048 + p.val) :
    (iblk1 V c 2 t : Tab 2048) (ix2 p k) = (V c main_call0_v10_0 : Tab 65536) (ix2 p' k) := by
  unfold iblk1
  rw [View.read_apply]
  show V c main_call0_v10_0 _ = V c main_call0_v10_0 _
  congr 1
  funext a
  apply Fin.ext
  obtain ⟨e0, e1⟩ := idx_2 t
  match a with
  | ⟨0, _⟩ => show win1_2.index t (0 : Fin 2) * 2048 + 1 * p.val = p'.val; rw [e0, hp]; omega
  | ⟨1, _⟩ => show win1_2.index t (1 : Fin 2) * 128 + 1 * k.val = k.val; rw [e1]; omega

/-- Row p of window 3's block at point t is row 2048·t + p of its table. -/
theorem blk_3 (c : Dev nD) (t : Fin cfg1.N) (p : Fin 2048) (p' : Fin 65536) (k : Fin 128) (hp : p'.val = t.val * 2048 + p.val) :
    (iblk1 V c 3 t : Tab 2048) (ix2 p k) = (V c main_call0_v9 : Tab 65536) (ix2 p' k) := by
  unfold iblk1
  rw [View.read_apply]
  show V c main_call0_v9 _ = V c main_call0_v9 _
  congr 1
  funext a
  apply Fin.ext
  obtain ⟨e0, e1⟩ := idx_3 t
  match a with
  | ⟨0, _⟩ => show win1_3.index t (0 : Fin 2) * 2048 + 1 * p.val = p'.val; rw [e0, hp]; omega
  | ⟨1, _⟩ => show win1_3.index t (1 : Fin 2) * 128 + 1 * k.val = k.val; rw [e1]; omega

/-- Window 4's block at any point is its whole array. -/
theorem blk_4 (c : Dev nD) (t : Fin cfg1.N) : (iblk1 V c 4 t : Mat) = (V c main_arg9 : Mat) := by
  funext y
  unfold iblk1
  rw [View.read_apply]
  show V c main_arg9 _ = V c main_arg9 y
  congr 1
  funext a
  apply Fin.ext
  obtain ⟨e0, e1⟩ := idx_4 t
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- Window 5's block at any point is its whole array. -/
theorem blk_5 (c : Dev nD) (t : Fin cfg1.N) : (iblk1 V c 5 t : Mat) = (V c main_arg10 : Mat) := by
  funext y
  unfold iblk1
  rw [View.read_apply]
  show V c main_arg10 _ = V c main_arg10 y
  congr 1
  funext a
  apply Fin.ext
  obtain ⟨e0, e1⟩ := idx_5 t
  match a with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

/-- Window 6's block at any point is its whole array. -/
theorem blk_6 (c : Dev nD) (t : Fin cfg1.N) : (iblk1 V c 6 t : Row) = (V c main_arg11 : Row) := by
  funext y
  unfold iblk1
  rw [View.read_apply]
  show V c main_arg11 _ = V c main_arg11 y
  congr 1
  funext a
  apply Fin.ext
  obtain ⟨e0, e1⟩ := idx_6 t
  match a with
  | ⟨0, _⟩ => show win1_6.index t (0 : Fin 2) * 1 + 1 * (y 0).val = (y 0).val; rw [e0]; omega
  | ⟨1, _⟩ => show win1_6.index t (1 : Fin 2) * 128 + 1 * (y 1).val = (y 1).val; rw [e1]; omega

/-! ## Output window 7 -/

/-- The new state: (1 − z)·s + z·tanh(f_src·w + m·u + b), m the aggregated message table. -/
abbrev newTab (c : Dev nD) : Tab 65536 :=
  mix (V c main_call0_v10_0 : Tab 65536) (V c main_call0_v9 : Tab 65536) (aff (V c main_arg1 : Tab 65536) (V c main_call0_v28 : Tab 65536) (V c main_arg9 : Mat) (V c main_arg10 : Mat) (V c main_arg11 : Row))

/-- What point t writes back is block t of that table. -/
theorem flushed_7 (c : Dev nD) (t : Fin cfg1.N) :
    (dat1 V c).flushed 7 t = ((cfg1.win 7).blk t).view.read (Elt Ideal) (newTab V c) := by
  show (cfg1.win 7).cut (grid1.coords t) ((dat1 V c).after 7 t) = _
  rw [after1_7]
  unfold out1_7
  rw [View.canon_unit_zero hz]
  simp only [View.ld_unit_zero (S := S2048x128) hz, View.ld_unit_zero (S := S128x128) hz, View.ld_unit_zero (S := S1x128) hz]
  unfold k1_pay1
  simp only [shapeCast_self]
  rw [tile_mix dot_S2048x128_S128x128_S2048x128_1_0_0_1_n_n rfl bitsLt_bf16_f32 broadcasts_S1x128_S2048x128
    (iblk1 V c 1 t) (iblk1 V c 0 t) (iblk1 V c 2 t) (iblk1 V c 3 t) (iblk1 V c 4 t) (iblk1 V c 5 t) (iblk1 V c 6 t)]
  rw [blk_4 V c t, blk_5 V c t, blk_6 V c t]
  funext j
  rw [View.read_apply]
  obtain ⟨e0, e1⟩ := idx_7 t
  refine mix_block (V c main_call0_v10_0 : Tab 65536) (V c main_call0_v9 : Tab 65536) (V c main_arg1 : Tab 65536) (V c main_call0_v28 : Tab 65536)
    (iblk1 V c 2 t : Tab 2048) (iblk1 V c 3 t : Tab 2048) (iblk1 V c 1 t : Tab 2048) (iblk1 V c 0 t : Tab 2048)
    (V c main_arg9 : Mat) (V c main_arg10 : Mat) (V c main_arg11 : Row) (t.val * 2048)
    (fun p p' k h => blk_2 V c t p p' k h) (fun p p' k h => blk_3 V c t p p' k h)
    (fun p p' k h => blk_1 V c t p p' k h) (fun p p' k h => blk_0 V c t p p' k h) j _ ?_ ?_
  · show win1_7.index t (0 : Fin 2) * 2048 + 1 * (j 0).val = t.val * 2048 + (j 0).val; rw [e0]; omega
  · show win1_7.index t (1 : Fin 2) * 128 + 1 * (j 1).val = (j 1).val; rw [e1]; omega

/-- An index of the table is in point t's block iff each coordinate is in the block's range on its axis. -/
theorem mem_blk_7 (t : Fin cfg1.N) (i : S65536x128.Idx) :
    i ∈ ((cfg1.win 7).blk t).view.set ↔ ∀ a : Fin 2, win1_7.index t a * S2048x128.size a ≤ (i a).val ∧ (i a).val < win1_7.index t a * S2048x128.size a + S2048x128.size a := by
  show i ∈ ((View.whole main_v0).slice (win1_7.rect t)).set ↔ _
  rw [View.set_slice_whole, Rect.mem_set_unit]
  exact Iff.rfl

/-- Every row block is some point's. -/
theorem onto_7 : ∀ q : Fin 32, ∃ t : Fin cfg1.N, win1_7.index t = ![q.val, 0] :=
  (by decide +kernel : ∀ q : Fin 32, ∃ t : Fin grid1.N, win1_7.index t = ![q.val, 0])

/-- The 32 blocks cover the table: row r is in block r / 2048. -/
theorem cover_7 (i : S65536x128.Idx) :
    ∃ t : Fin cfg1.N, (cfg1.win 7).flush t = true ∧ i ∈ ((cfg1.win 7).blk t).view.set := by
  have hi0 : (i 0).val < 65536 := (i 0).isLt
  have hi1 : (i 1).val < 128 := (i 1).isLt
  obtain ⟨t, ht⟩ := onto_7 ⟨(i 0).val / 2048, by omega⟩
  have q0 : win1_7.index t (0 : Fin 2) = (i 0).val / 2048 := congrFun ht 0
  have q1 : win1_7.index t (1 : Fin 2) = 0 := congrFun ht 1
  refine ⟨t, flush1_7 t, ?_⟩
  rw [mem_blk_7]
  intro a
  match a with
  | ⟨0, _⟩ => show win1_7.index t (0 : Fin 2) * 2048 ≤ (i 0).val ∧ (i 0).val < win1_7.index t (0 : Fin 2) * 2048 + 2048; omega
  | ⟨1, _⟩ => show win1_7.index t (1 : Fin 2) * 128 ≤ (i 1).val ∧ (i 1).val < win1_7.index t (1 : Fin 2) * 128 + 128; omega

/-- After the region the output table is that one table. -/
theorem final_7 (c : Dev nD) : (dat1 V c).arrAt 7 cfg1.N = newTab V c :=
  (dat1 V c).arrAt_eq_of_cover 7 (newTab V c) (fun t _ => flushed_7 V c t) (cover_7)

end Cert.KernelIdeal.Mix

end
-- ==== Proof.GruStep.lean ====
/-
  The whole step as one function of the inputs. Over a graph with 65536 nodes and 1048576 edges given by two id
  lists (source and destination of each edge):
    PULL  takes, for each edge, the row of a node table at the edge's source (a negative id counts from the end of
          the table; the row number is clamped into the table by the gather);
    PUSH  sums the rows of an edge table into the rows of their destination nodes, from a table of zeros;
    s = push (pull h);  z = gate(f_src, s);  r = gate(f_dst, h);  m = push (pull r · pull h);
    new state = (1 − z)·s + z·tanh(f_src·w + m·u + b).
  The gather only re-indexes its operand, so pulling rows of an entrywise image is the entrywise image of the pulled
  rows: the reset gate may be formed at the nodes and pulled, or pulled before the logistic function, alike.
-/
import proofs.«150984_j5798205849962_1_alg».proof.Proof.GruSpec

noncomputable section

namespace Cert.TreeGru

open Idealize.ShloMosaic Idealize.ShloMosaic.ValueIdx

/-- Shapes: a node table, an edge table, an id list, an id column, a scalar. -/
abbrev SN : Shape := ⟨2, ![65536, 128]⟩
abbrev SE : Shape := ⟨2, ![1048576, 128]⟩
abbrev SI : Shape := ⟨1, ![1048576]⟩
abbrev SC : Shape := ⟨2, ![1048576, 1]⟩
abbrev S0 : Shape := ⟨0, ![]⟩

/-- The records and side conditions of the graph operations as a program states them. -/
structure Glue where
  g : GatherDims SN SC SE
  sc : ScatterDims SN SC SE
  b0 : S0.BroadcastsInDim SI ![]
  b1 : SI.BroadcastsInDim SC ![0]
  bn : S0.BroadcastsInDim SN ![]

variable (G : Glue)

/-- The column of row numbers read off an id list: a negative id counts from the end of the table. -/
def col (ids : IVec SI 32) : IVec SC 32 :=
  broadcastInDim SC ![0] G.b1
    (select (cmpi .slt ids (broadcastInDim SI ![] G.b0 (constantI S0 32 0#32)))
      (addi ids (broadcastInDim SI ![] G.b0 (constantI S0 32 65536#32))) ids)

/-- For each edge the row of a node table at the edge's source. -/
def pull (X : Tab 65536) (src : IVec SI 32) : FVec Ideal SE .f32 := Host.gather G.g X (col G src)

/-- The rows of an edge table summed into the rows of their destination nodes. -/
def push (U : FVec Ideal SE .f32) (dst : IVec SI 32) : Tab 65536 :=
  Host.scatterAdd G.sc (broadcastInDim SN ![] G.bn (constant (F := Ideal) S0 .f32 0x00000000#32))
    (broadcastInDim SC ![0] G.b1 dst) U

/-- Pulling rows of the logistic image of a table is the logistic image of the pulled rows. -/
theorem pull_sig (Y : Tab 65536) (src : IVec SI 32) : pull G (sig Y) src = sig (pull G Y src) := rfl

/-- The aggregated neighbour state. -/
def nbr (h : Tab 65536) (src dst : IVec SI 32) : Tab 65536 := push G (pull G h src) dst

/-- The aggregated message table: the reset gate times the state, both at each edge's source, summed at the
    destinations. -/
def msg (h fd : Tab 65536) (wr ur : Mat) (br : Row) (src dst : IVec SI 32) : Tab 65536 :=
  push G (mulf (pull G (gate fd h wr ur br) src) (pull G h src)) dst

/-- The new state. -/
def step (h fs fd : Tab 65536) (wz uz : Mat) (bz : Row) (wr ur : Mat) (br : Row) (w u : Mat) (b : Row)
    (src dst : IVec SI 32) : Tab 65536 :=
  mix (gate fs (nbr G h src dst) wz uz bz) (nbr G h src dst) (aff fs (msg G h fd wr ur br src dst) w u b)

end Cert.TreeGru

end
-- ==== Proof.KernelValue.lean ====
/-
  The kernel program's result as the step function of its arguments. @main is four stretches: host operations (the
  aggregated neighbour state s), the first kernel region (the two gates), host operations (the aggregated messages),
  the second kernel region (the new state). The buffer contents at each boundary are a fold from the launch memory;
  here the result buffer is read back through that fold: the second region leaves the mixture of the tables it finds;
  the host stretch before it wrote the message table from the first region's reset gate and left every other buffer;
  the first region left the two gates of the tables IT found and kept its inputs; the first host stretch wrote s from
  the arguments and left them. No stretch writes an argument, so every table met on the way is an argument, s, a
  gate or the message table.
-/
import proofs.«150984_j5798205849962_1_alg».proof.Proof.KernelRun
import proofs.«150984_j5798205849962_1_alg».proof.Proof.RegionGates
import proofs.«150984_j5798205849962_1_alg».proof.Proof.RegionMix
import proofs.«150984_j5798205849962_1_alg».proof.Proof.GruStep
import Idealize.ShloMosaic.Lib.StableHlo.Run

set_option maxRecDepth 16384

noncomputable section

namespace Cert.KernelIdeal.Fold

open Cert.KernelIdeal Cert.KernelIdeal.Gen Cert.TreeGru
open Idealize.ShloMosaic Idealize.ShloMosaic.TcCoe Idealize.ShloMosaic.ValueIdx Idealize.SL.Sem

-- the contents at the two regions' exits are only ever read through the lemmas about them
attribute [local irreducible] W2 W4

variable (m : (ℓ : Loc nD τ sig) → Buf (Elt Ideal) ℓ) (ρ : Dev nD → PrngReg)

/-- The kernel program's records of its graph operations. -/
def glue : Glue :=
  ⟨gather_S65536x128_S1048576x1_S1048576x128_1_0_n_n_0_1_1128, scatter_S65536x128_S1048576x1_S1048576x128_1_0_0_1,
   Facts₀.bcast_S_S1048576, Facts₀.bcast_S1048576_S1048576x1_0, Facts₀.bcast_S_S65536x128⟩

/-! ## The arguments as launched -/

abbrev a_h (c : Dev nD) : Tab 65536 := m ((c : Thread nD τ).loc main_arg0)
abbrev a_fs (c : Dev nD) : Tab 65536 := m ((c : Thread nD τ).loc main_arg1)
abbrev a_fd (c : Dev nD) : Tab 65536 := m ((c : Thread nD τ).loc main_arg2)
abbrev a_wz (c : Dev nD) : Mat := m ((c : Thread nD τ).loc main_arg3)
abbrev a_uz (c : Dev nD) : Mat := m ((c : Thread nD τ).loc main_arg4)
abbrev a_bz (c : Dev nD) : Row := m ((c : Thread nD τ).loc main_arg5)
abbrev a_wr (c : Dev nD) : Mat := m ((c : Thread nD τ).loc main_arg6)
abbrev a_ur (c : Dev nD) : Mat := m ((c : Thread nD τ).loc main_arg7)
abbrev a_br (c : Dev nD) : Row := m ((c : Thread nD τ).loc main_arg8)
abbrev a_w (c : Dev nD) : Mat := m ((c : Thread nD τ).loc main_arg9)
abbrev a_u (c : Dev nD) : Mat := m ((c : Thread nD τ).loc main_arg10)
abbrev a_b (c : Dev nD) : Row := m ((c : Thread nD τ).loc main_arg11)
abbrev a_src (c : Dev nD) : IVec SI 32 := m ((c : Thread nD τ).loc main_arg12)
abbrev a_dst (c : Dev nD) : IVec SI 32 := m ((c : Thread nD τ).loc main_arg13)

/-- The aggregated neighbour state of the launch contents. -/
abbrev sTab (c : Dev nD) : Tab 65536 := nbr glue (a_h m c) (a_src m c) (a_dst m c)

/-- The aggregated messages of the launch contents. -/
abbrev mTab (c : Dev nD) : Tab 65536 := msg glue (a_h m c) (a_fd m c) (a_wr m c) (a_ur m c) (a_br m c) (a_src m c) (a_dst m c)

/-! ## Region 0's entry: the first host stretch wrote s and left the arguments -/

theorem V1_h (c : Dev nD) : (V1 m ρ c main_arg0 : Tab 65536) = a_h m c := by
  show StableHlo.after hostOps0 (W0 m ρ c) (Proc.devRef .tc main_arg0) = _
  after_results
theorem V1_fs (c : Dev nD) : (V1 m ρ c main_arg1 : Tab 65536) = a_fs m c := by
  show StableHlo.after hostOps0 (W0 m ρ c) (Proc.devRef .tc main_arg1) = _
  after_results
theorem V1_fd (c : Dev nD) : (V1 m ρ c main_arg2 : Tab 65536) = a_fd m c := by
  show StableHlo.after hostOps0 (W0 m ρ c) (Proc.devRef .tc main_arg2) = _
  after_results
theorem V1_wz (c : Dev nD) : (V1 m ρ c main_arg3 : Mat) = a_wz m c := by
  show StableHlo.after hostOps0 (W0 m ρ c) (Proc.devRef .tc main_arg3) = _
  after_results
theorem V1_uz (c : Dev nD) : (V1 m ρ c main_arg4 : Mat) = a_uz m c := by
  show StableHlo.after hostOps0 (W0 m ρ c) (Proc.devRef .tc main_arg4) = _
  after_results
theorem V1_bz (c : Dev nD) : (V1 m ρ c main_arg5 : Row) = a_bz m c := by
  show StableHlo.after hostOps0 (W0 m ρ c) (Proc.devRef .tc main_arg5) = _
  after_results
theorem V1_wr (c : Dev nD) : (V1 m ρ c main_arg6 : Mat) = a_wr m c := by
  show StableHlo.after hostOps0 (W0 m ρ c) (Proc.devRef .tc main_arg6) = _
  after_results
theorem V1_ur (c : Dev nD) : (V1 m ρ c main_arg7 : Mat) = a_ur m c := by
  show StableHlo.after hostOps0 (W0 m ρ c) (Proc.devRef .tc main_arg7) = _
  after_results
theorem V1_br (c : Dev nD) : (V1 m ρ c main_arg8 : Row) = a_br m c := by
  show StableHlo.after hostOps0 (W0 m ρ c) (Proc.devRef .tc main_arg8) = _
  after_results
theorem V1_w (c : Dev nD) : (V1 m ρ c main_arg9 : Mat) = a_w m c := by
  show StableHlo.after hostOps0 (W0 m ρ c) (Proc.devRef .tc main_arg9) = _
  after_results
theorem V1_u (c : Dev nD) : (V1 m ρ c main_arg10 : Mat) = a_u m c := by
  show StableHlo.after hostOps0 (W0 m ρ c) (Proc.devRef .tc main_arg10) = _
  after_results
theorem V1_b (c : Dev nD) : (V1 m ρ c main_arg11 : Row) = a_b m c := by
  show StableHlo.after hostOps0 (W0 m ρ c) (Proc.devRef .tc main_arg11) = _
  after_results
theorem V1_src (c : Dev nD) : (V1 m ρ c main_arg12 : IVec SI 32) = a_src m c := by
  show StableHlo.after hostOps0 (W0 m ρ c) (Proc.devRef .tc main_arg12) = _
  after_results
theorem V1_dst (c : Dev nD) : (V1 m ρ c main_arg13 : IVec SI 32) = a_dst m c := by
  show StableHlo.after hostOps0 (W0 m ρ c) (Proc.devRef .tc main_arg13) = _
  after_results
theorem V1_s (c : Dev nD) : (V1 m ρ c main_call0_v9 : Tab 65536) = sTab m c := by
  show StableHlo.after hostOps0 (W0 m ρ c) (Proc.devRef .tc main_call0_v9) = _
  after_results
  rfl

/-! ## Region 0's exit: the two gates; its inputs and every other buffer as entered -/

theorem W2_z (c : Dev nD) : (W2 m ρ c (Proc.devRef .tc main_call0_v10_0) : Tab 65536)
    = gate (a_fs m c) (sTab m c) (a_wz m c) (a_uz m c) (a_bz m c) := by
  rw [show W2 m ρ c (Proc.devRef .tc main_call0_v10_0) = (dat0 (V1 m ρ) c).arrAt 10 cfg0.N from W2_arr m ρ c 10,
    Gates.final_10 (V1 m ρ) c]
  show gate (V1 m ρ c main_arg1 : Tab 65536) (V1 m ρ c main_call0_v9 : Tab 65536) (V1 m ρ c main_arg3 : Mat) (V1 m ρ c main_arg4 : Mat) (V1 m ρ c main_arg5 : Row) = _
  rw [V1_fs, V1_s, V1_wz, V1_uz, V1_bz]

theorem W2_r (c : Dev nD) : (W2 m ρ c (Proc.devRef .tc main_call0_v10_1) : Tab 65536)
    = gate (a_fd m c) (a_h m c) (a_wr m c) (a_ur m c) (a_br m c) := by
  rw [show W2 m ρ c (Proc.devRef .tc main_call0_v10_1) = (dat0 (V1 m ρ) c).arrAt 11 cfg0.N from W2_arr m ρ c 11,
    Gates.final_11 (V1 m ρ) c]
  show gate (V1 m ρ c main_arg2 : Tab 65536) (V1 m ρ c main_arg0 : Tab 65536) (V1 m ρ c main_arg6 : Mat) (V1 m ρ c main_arg7 : Mat) (V1 m ρ c main_arg8 : Row) = _
  rw [V1_fd, V1_h, V1_wr, V1_ur, V1_br]

/-- An input window's table leaves the region as it entered. -/
theorem W2_in (c : Dev nD) (w : Fin cfg0.W) (hw : (cfg0.win w).isOut = false) :
    W2 m ρ c (Proc.devRef .tc (Pipeline.arrRef spec0 w)) = V1 m ρ c (Pipeline.arrRef spec0 w) :=
  (W2_arr m ρ c w).trans (((dat0 (V1 m ρ) c).arrAt_in w hw _).trans (A_eq0 (V1 m ρ) c w))

theorem W2_h (c : Dev nD) : (W2 m ρ c (Proc.devRef .tc main_arg0) : Tab 65536) = a_h m c :=
  (W2_in m ρ c 2 rfl).trans (V1_h m ρ c)
theorem W2_fs (c : Dev nD) : (W2 m ρ c (Proc.devRef .tc main_arg1) : Tab 65536) = a_fs m c :=
  (W2_in m ρ c 0 rfl).trans (V1_fs m ρ c)
theorem W2_s (c : Dev nD) : (W2 m ρ c (Proc.devRef .tc main_call0_v9) : Tab 65536) = sTab m c :=
  (W2_in m ρ c 3 rfl).trans (V1_s m ρ c)
theorem W2_w (c : Dev nD) : (W2 m ρ c (Proc.devRef .tc main_arg9) : Mat) = a_w m c :=
  (W2_of_ne m ρ c main_arg9 (by decide)).trans (V1_w m ρ c)
theorem W2_u (c : Dev nD) : (W2 m ρ c (Proc.devRef .tc main_arg10) : Mat) = a_u m c :=
  (W2_of_ne m ρ c main_arg10 (by decide)).trans (V1_u m ρ c)
theorem W2_b (c : Dev nD) : (W2 m ρ c (Proc.devRef .tc main_arg11) : Row) = a_b m c :=
  (W2_of_ne m ρ c main_arg11 (by decide)).trans (V1_b m ρ c)
theorem W2_src (c : Dev nD) : (W2 m ρ c (Proc.devRef .tc main_arg12) : IVec SI 32) = a_src m c :=
  (W2_of_ne m ρ c main_arg12 (by decide)).trans (V1_src m ρ c)
theorem W2_dst (c : Dev nD) : (W2 m ρ c (Proc.devRef .tc main_arg13) : IVec SI 32) = a_dst m c :=
  (W2_of_ne m ρ c main_arg13 (by decide)).trans (V1_dst m ρ c)

/-! ## Region 1's entry: the second host stretch wrote the message table and left the rest -/

set_option maxHeartbeats 4000000 in
/-- The message table as the host stretch computes it from what region 0 left. -/
theorem V3_m_of_W2 (c : Dev nD) : (V3 m ρ c main_call0_v28 : Tab 65536)
    = push glue (mulf (pull glue (W2 m ρ c (Proc.devRef .tc main_call0_v10_1) : Tab 65536) (W2 m ρ c (Proc.devRef .tc main_arg12) : IVec SI 32))
                      (pull glue (W2 m ρ c (Proc.devRef .tc main_arg0) : Tab 65536) (W2 m ρ c (Proc.devRef .tc main_arg12) : IVec SI 32)))
        (W2 m ρ c (Proc.devRef .tc main_arg13) : IVec SI 32) := by
  show StableHlo.after hostOps1 (W2 m ρ c) (Proc.devRef .tc main_call0_v28) = _
  after_results_simp
  rfl

theorem V3_m (c : Dev nD) : (V3 m ρ c main_call0_v28 : Tab 65536) = mTab m c := by
  rw [V3_m_of_W2, W2_r, W2_src, W2_h, W2_dst]
  rfl

set_option maxHeartbeats 4000000 in
theorem V3_z (c : Dev nD) : (V3 m ρ c main_call0_v10_0 : Tab 65536) = gate (a_fs m c) (sTab m c) (a_wz m c) (a_uz m c) (a_bz m c) := by
  have e : (V3 m ρ c main_call0_v10_0 : Tab 65536) = (W2 m ρ c (Proc.devRef .tc main_call0_v10_0) : Tab 65536) := by
    show StableHlo.after hostOps1 (W2 m ρ c) (Proc.devRef .tc main_call0_v10_0) = _
    after_results_simp
  rw [e, W2_z]

set_option maxHeartbeats 4000000 in
theorem V3_s (c : Dev nD) : (V3 m ρ c main_call0_v9 : Tab 65536) = sTab m c := by
  have e : (V3 m ρ c main_call0_v9 : Tab 65536) = (W2 m ρ c (Proc.devRef .tc main_call0_v9) : Tab 65536) := by
    show StableHlo.after hostOps1 (W2 m ρ c) (Proc.devRef .tc main_call0_v9) = _
    after_results_simp
  rw [e, W2_s]

set_option maxHeartbeats 4000000 in
theorem V3_fs (c : Dev nD) : (V3 m ρ c main_arg1 : Tab 65536) = a_fs m c := by
  have e : (V3 m ρ c main_arg1 : Tab 65536) = (W2 m ρ c (Proc.devRef .tc main_arg1) : Tab 65536) := by
    show StableHlo.after hostOps1 (W2 m ρ c) (Proc.devRef .tc main_arg1) = _
    after_results_simp
  rw [e, W2_fs]

set_option maxHeartbeats 4000000 in
theorem V3_w (c : Dev nD) : (V3 m ρ c main_arg9 : Mat) = a_w m c := by
  have e : (V3 m ρ c main_arg9 : Mat) = (W2 m ρ c (Proc.devRef .tc main_arg9) : Mat) := by
    show StableHlo.after hostOps1 (W2 m ρ c) (Proc.devRef .tc main_arg9) = _
    after_results_simp
  rw [e, W2_w]

set_option maxHeartbeats 4000000 in
theorem V3_u (c : Dev nD) : (V3 m ρ c main_arg10 : Mat) = a_u m c := by
  have e : (V3 m ρ c main_arg10 : Mat) = (W2 m ρ c (Proc.devRef .tc main_arg10) : Mat) := by
    show StableHlo.after hostOps1 (W2 m ρ c) (Proc.devRef .tc main_arg10) = _
    after_results_simp
  rw [e, W2_u]

set_option maxHeartbeats 4000000 in
theorem V3_b (c : Dev nD) : (V3 m ρ c main_arg11 : Row) = a_b m c := by
  have e : (V3 m ρ c main_arg11 : Row) = (W2 m ρ c (Proc.devRef .tc main_arg11) : Row) := by
    show StableHlo.after hostOps1 (W2 m ρ c) (Proc.devRef .tc main_arg11) = _
    after_results_simp
  rw [e, W2_b]

/-! ## The result -/

/-- The result buffer after the run is the step function of the arguments as launched. -/
theorem result_eq (c : Dev nD) : (W4 m ρ c (Proc.devRef .tc main_v0) : Tab 65536)
    = step glue (a_h m c) (a_fs m c) (a_fd m c) (a_wz m c) (a_uz m c) (a_bz m c) (a_wr m c) (a_ur m c) (a_br m c)
        (a_w m c) (a_u m c) (a_b m c) (a_src m c) (a_dst m c) := by
  rw [show W4 m ρ c (Proc.devRef .tc main_v0) = (dat1 (V3 m ρ) c).arrAt 7 cfg1.N from W4_arr m ρ c 7,
    Mix.final_7 (V3 m ρ) c]
  show mix (V3 m ρ c main_call0_v10_0 : Tab 65536) (V3 m ρ c main_call0_v9 : Tab 65536)
      (aff (V3 m ρ c main_arg1 : Tab 65536) (V3 m ρ c main_call0_v28 : Tab 65536) (V3 m ρ c main_arg9 : Mat) (V3 m ρ c main_arg10 : Mat) (V3 m ρ c main_arg11 : Row)) = _
  rw [V3_z, V3_s, V3_fs, V3_m, V3_w, V3_u, V3_b]
  rfl

/-- The run, read: every weakly fair execution of the kernel program terminates without a fault, with the result at
    the step function of the arguments and the arguments as launched. -/
theorem run : θ_run defs (onTc (τ := τ) (main (F := Ideal))) ⟨m, fun _ => 0, ρ⟩ (fun r => ∀ c : Dev nD,
      r.2.mem ((c.tc : Thread nD τ).loc main_v0) = step glue (a_h m c) (a_fs m c) (a_fd m c) (a_wz m c) (a_uz m c) (a_bz m c) (a_wr m c) (a_ur m c) (a_br m c) (a_w m c) (a_u m c) (a_b m c) (a_src m c) (a_dst m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (result_eq m ρ c), (h c).2⟩)
    (Cert.KernelIdeal.RunValue.run_main (F := Ideal) m ρ)

end Cert.KernelIdeal.Fold

end
-- ==== Proof.RefValue.lean ====
/-
  The reference's result is the step function of its arguments. Its program is read one operation at a time (the
  stages of the generated reading): the aggregated neighbour state is PUSH of PULL of the state; the update gate is
  the host's 1 / (1 + exp(−y)) of the host's affine part, that is the logistic function of it; the reset gate is
  formed AFTER pulling the rows of the affine part along the edges, which is the pulled rows of the gate formed at
  the nodes, because the gather only re-indexes; the aggregated messages, the candidate and the mixture follow
  operation by operation.
-/
import proofs.«150984_j5798205849962_1_alg».proof.Defs
import proofs.«150984_j5798205849962_1_alg».proof.Proof.Gen.ReferenceIdeal.Run
import proofs.«150984_j5798205849962_1_alg».proof.Proof.Gen.ReferenceIdeal.Read
import proofs.«150984_j5798205849962_1_alg».proof.Proof.GruStep

noncomputable section

namespace Cert.ReferenceIdeal.RefValue

open Cert.ReferenceIdeal Cert.ReferenceIdeal.Gen Cert.ReferenceIdeal.Read Cert.TreeGru
open Idealize.ShloMosaic Idealize.ShloMosaic.TcCoe Idealize.ShloMosaic.ValueIdx Idealize.SL.Sem

/-- The reference's records of its graph operations. -/
def glue : Glue :=
  ⟨gather_S65536x128_S1048576x1_S1048576x128_1_0_n_n_0_1_1128, scatter_S65536x128_S1048576x1_S1048576x128_1_0_0_1,
   Facts₀.bcast_S_S1048576, Facts₀.bcast_S1048576_S1048576x1_0, Facts₀.bcast_S_S65536x128⟩

variable (x0 x1 x2 : Tab 65536) (x3 x4 : Mat) (x5 : Row) (x6 x7 : Mat) (x8 : Row) (x9 x10 : Mat) (x11 : Row) (x12 x13 : IVec SI 32)

/-- The aggregated neighbour state. -/
theorem nbr_eq : val_main_v9 (F := Ideal) x0 x12 x13 = nbr glue x0 x12 x13 := rfl

/-- The update gate. -/
theorem z_eq : val_main_v20 (F := Ideal) x0 x1 x3 x4 x5 x12 x13 = gate x1 (nbr glue x0 x12 x13) x3 x4 x5 := by
  unfold val_main_v20 val_main_v19 val_main_cst_2 val_main_v18 val_main_v17 val_main_cst_1 val_main_v16 val_main_v15
    val_main_v14 val_main_v13 val_main_v12 val_main_v11 val_main_v10
  rw [nbr_eq, host_aff dot_S65536x128_S128x128_S65536x128_1_0_0_1_n_n rfl Facts₀.bcast_S1x128_S65536x128_0_1]
  exact host_sig Facts₀.bcast_S_S65536x128 _

/-- The affine part of the reset gate, at the nodes. -/
theorem rpre_eq : val_main_v25 (F := Ideal) x0 x2 x6 x7 x8 = aff x2 x0 x6 x7 x8 := by
  unfold val_main_v25 val_main_v24 val_main_v23 val_main_v22 val_main_v21
  exact host_aff dot_S65536x128_S128x128_S65536x128_1_0_0_1_n_n rfl Facts₀.bcast_S1x128_S65536x128_0_1 x2 x0 x6 x7 x8

/-- The reset gate along the edges: formed after the rows are pulled, it is the pulled rows of the gate at the nodes. -/
theorem r_eq : val_main_v38 (F := Ideal) x0 x2 x6 x7 x8 x12 = pull glue (gate x2 x0 x6 x7 x8) x12 := by
  unfold val_main_v38 val_main_v37 val_main_cst_6 val_main_v36 val_main_v35 val_main_cst_5 val_main_v34 val_main_v33 val_main_v32
  rw [rpre_eq, host_sig Facts₀.bcast_S_S1048576x128]
  rfl

/-- The aggregated messages. -/
theorem msg_eq : val_main_v49 (F := Ideal) x0 x2 x6 x7 x8 x12 x13 = msg glue x0 x2 x6 x7 x8 x12 x13 := by
  unfold val_main_v49 val_main_v46
  rw [r_eq]
  rfl

/-- The reference's result is the step function of its arguments. -/
theorem result_eq : val_main_v60 (F := Ideal) x0 x1 x2 x3 x4 x5 x6 x7 x8 x9 x10 x11 x12 x13
    = step glue x0 x1 x2 x3 x4 x5 x6 x7 x8 x9 x10 x11 x12 x13 := by
  unfold val_main_v60 val_main_v59 val_main_v58 val_main_v57 val_main_v56 val_main_cst_10 val_main_v55 val_main_v54 val_main_v53
    val_main_v52 val_main_v51 val_main_v50
  rw [z_eq, msg_eq, nbr_eq, host_aff dot_S65536x128_S128x128_S65536x128_1_0_0_1_n_n rfl Facts₀.bcast_S1x128_S65536x128_0_1]
  exact host_mix Facts₀.bcast_S_S65536x128 _ _ _

end Cert.ReferenceIdeal.RefValue

end
-- ==== Proof.lean ====
/-
  One step of a tree-structured gated recurrent unit over a graph (65536 nodes, 1048576 edges): a Pallas kernel
  program against its jnp reference, equal over the extended reals.

  Both programs aggregate the neighbours' states s (take the state's row at each edge's source, sum the rows at the
  edges' destinations), form the update gate z = σ(f_src·wz + s·uz + bz) and the reset gate σ(f_dst·wr + h·ur + br),
  aggregate the messages m (reset gate times state along the edges), and return (1 − z)·s + z·tanh(f_src·w + m·u + b).
  The kernel program does the dense parts in two kernel regions over 32 blocks of 2048 rows, its matrix products on
  operands narrowed to bf16 into zero accumulators, with the hardware's logistic operation, and forms the reset gate
  at the nodes before taking its rows along the edges; the reference uses whole-table products, spells the logistic
  function 1 / (1 + exp(−y)), and takes the rows first. Over the extended reals a narrowing is the identity, both
  products are the same sum, the two spellings of the logistic function are one function, and taking rows commutes
  with an entrywise function: both results are ONE function of the arguments (Proof/GruStep.lean), the kernel's read
  off its frame run (Proof/KernelValue.lean), the reference's off its run (Proof/RefValue.lean). Nothing here needs
  the inputs finite: every step is an identity operation by operation.

  The frames of the two kernel programs are the generated frame certificates; the reference's frame is its run
  with the result dropped; the ideal pass rewrote nothing, so the idealization claim is trivial.
-/
import proofs.«150984_j5798205849962_1_alg».proof.Defs
import proofs.«150984_j5798205849962_1_alg».proof.Proof.Gen.Kernel
import proofs.«150984_j5798205849962_1_alg».proof.Proof.Gen.Kernel.Frame
import proofs.«150984_j5798205849962_1_alg».proof.Proof.Gen.KernelIdeal
import proofs.«150984_j5798205849962_1_alg».proof.Proof.Gen.KernelIdeal.Frame
import proofs.«150984_j5798205849962_1_alg».proof.Proof.Gen.ReferenceIdeal
import proofs.«150984_j5798205849962_1_alg».proof.Proof.Gen.ReferenceIdeal.Run
import proofs.«150984_j5798205849962_1_alg».proof.Proof.Gen.ReferenceIdeal.Read
import proofs.«150984_j5798205849962_1_alg».proof.Proof.Gen.Pre_finite_inputs
import proofs.«150984_j5798205849962_1_alg».proof.Proof.KernelValue
import proofs.«150984_j5798205849962_1_alg».proof.Proof.RefValue
import Idealize.ShloMosaic.Adequacy
import Idealize.ShloMosaic.Init

noncomputable section

namespace Cert.Proof

open Idealize.ShloMosaic Idealize.SL.Sem Cert.TreeGru

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The two programs state the same records for their graph operations. -/
theorem glue_eq : Cert.ReferenceIdeal.RefValue.glue = Cert.KernelIdeal.Fold.glue := rfl

/-- From memories that agree on the arguments both programs end with the step function of the arguments. -/
theorem algebraic : Cert.algebraic_KernelIdeal_ReferenceIdeal := by
  intro m ρ m' ρ' _ hagree
  refine ⟨_, Cert.KernelIdeal.Fold.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v60_eq m' c).trans
    ((Cert.ReferenceIdeal.RefValue.result_eq _ _ _ _ _ _ _ _ _ _ _ _ _ _).trans ?_)
  obtain ⟨e0, e1, e2, e3, e4, e5, e6, e7, e8, e9, e10, e11, e12, e13⟩ := hagree c
  rw [glue_eq, e0, e1, e2, e3, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
